-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096x32 .f32) (main_arg3 : FVec F S4096x32 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S1x4096 : Shape := ⟨2, ![1, 4096]⟩
abbrev S8192x32 : Shape := ⟨2, ![8192, 32]⟩
abbrev S512x4096 : Shape := ⟨2, ![512, 4096]⟩
abbrev S512x32 : Shape := ⟨2, ![512, 32]⟩
abbrev S512x1024 : Shape := ⟨2, ![512, 1024]⟩
abbrev S1x1024 : Shape := ⟨2, ![1, 1024]⟩
abbrev S1x512 : Shape := ⟨2, ![1, 512]⟩
abbrev S512x512 : Shape := ⟨2, ![512, 512]⟩
abbrev S512x16x64 : Shape := ⟨3, ![512, 16, 64]⟩
abbrev S512x16 : Shape := ⟨2, ![512, 16]⟩
abbrev S512x16x1 : Shape := ⟨3, ![512, 16, 1]⟩

abbrev nBuf : Space → Nat
  | .hbm => 12
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S4096x32, .bf16⟩
  | .hbm, ⟨9, _⟩ => ⟨S4096x32, .bf16⟩
  | .hbm, ⟨10, _⟩ => ⟨S8192x32, .f32⟩
  | .hbm, ⟨11, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x32, .bf16⟩
  | .local _ .vmem, ⟨4, _⟩ => ⟨S512x32, .f32⟩
  | .local _ .vmem, ⟨5, _⟩ => ⟨S512x32, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x512, .f32⟩
  | .local _ .vmem, ⟨14, _⟩ => ⟨S512x32, .f32⟩
  | .local _ .vmem, ⟨15, _⟩ => ⟨S512x32, .f32⟩
  | .local _ .vmem, ⟨16, _⟩ => ⟨S512x32, .bf16⟩
  | .local _ .vmem, ⟨17, _⟩ => ⟨S512x32, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v53 : BitVec 1 := Scalar.cmpi .eq arg2 c3_i32
  let v54 : BitVec 32 := Scalar.extui v53
  let c0_i32_20 : BitVec 32 := 0#32
  let v55 : BitVec 1 := Scalar.cmpi .ne v54 c0_i32_20
  v55

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S512x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S512x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4096_S1x4096 : S4096.ShapeCasts S1x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S512x32_S512x32_0_0 : ∀ a, (![0, 0] : Fin 2 → Nat) a + S512x32.size a ≤ S512x32.size a
  h_S512x32 : 0 < S512x32.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  reduces_S512x16x64_S512x16 : S512x16x64.Reduces [2] S512x16
  shapeCasts_S512x16_S512x16x1 : S512x16.ShapeCasts S512x16x1
  broadcasts_S512x16x1_S512x16x64 : S512x16x1.Broadcasts S512x16x64
  shapeCasts_S512x16x64_S512x1024 : S512x16x64.ShapeCasts S512x1024
  shapeCasts_S512x32_S512x32 : S512x32.ShapeCasts S512x32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x4096_S4096x32_S512x32_1_0_0_1_n_n_wf : DotDims.WF S512x4096 S4096x32 S512x32 [1] [0] [0] [1] [] []
  dot_S512x1024_S512x1024_S512x512_1_1_0_0_n_n_wf : DotDims.WF S512x1024 S512x1024 S512x512 [1] [1] [0] [0] [] []
  dot_S512x32_S512x32_S512x512_1_1_0_0_n_n_wf : DotDims.WF S512x32 S512x32 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S8192x32.size a
  hwx0_3 : ∀ i : grid0.Coords, EltTy.bits .f32 = 32 ∨ (Rect.block (s := S8192x32) S512x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x32.size a ≤ S8192x32.size a
  hwx1_4 : ∀ i : grid1.Coords, EltTy.bits .f32 = 32 ∨ (Rect.block (s := S8192x32) S512x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x32.size a ≤ S4096x32.size a
  hwx1_5 : ∀ i : grid1.Coords, EltTy.bits .bf16 = 32 ∨ (Rect.block (s := S4096x32) S512x32.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S8192x4096.size a
  hwx1_6 : ∀ i : grid1.Coords, EltTy.bits .f32 = 32 ∨ (Rect.block (s := S8192x4096) S512x512.size (cc1_transform_6 i) (hinb1_6 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x32_S512x32_S512x512_1_1_0_0_n_n : DotDims S512x32 S512x32 S512x512 where
  lhsContracting := [1]
  rhsContracting := [1]
  lhsNonContracting := [0]
  rhsNonContracting := [0]
  lhsBatch := []
  rhsBatch := []
  wf := dot_S512x32_S512x32_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S1x4096 : Shape := ⟨2, ![1, 4096]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S4096x64x64 : Shape := ⟨3, ![4096, 64, 64]⟩
abbrev S4096x64 : Shape := ⟨2, ![4096, 64]⟩
abbrev S4096x64x1 : Shape := ⟨3, ![4096, 64, 1]⟩
abbrev S8192x32 : Shape := ⟨2, ![8192, 32]⟩

abbrev nBuf : Space → Nat
  | .hbm => 66
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x64x64, .f32⟩
  | .hbm, ⟨10, _⟩ => ⟨S8192x64x64, .f32⟩
  | .hbm, ⟨11, _⟩ => ⟨S_, .f32⟩
  | .hbm, ⟨12, _⟩ => ⟨S8192x64, .f32⟩
  | .hbm, ⟨13, _⟩ => ⟨S8192x64x1, .f32⟩
  | .hbm, ⟨14, _⟩ => ⟨S_, .f32⟩
  | .hbm, ⟨15, _⟩ => ⟨S8192x64x1, .f32⟩
  | .hbm, ⟨16, _⟩ => ⟨S8192x64x1, .f32⟩
  | .hbm, ⟨17, _⟩ => ⟨S_, .f32⟩
  | .hbm, ⟨18, _⟩ => ⟨S8192x64x1, .f32⟩
  | .hbm, ⟨19, _⟩ => ⟨S8192x64x1, .f32⟩
  | .hbm, ⟨20, _⟩ => ⟨S8192x64x64, .f32⟩
  | .hbm, ⟨21, _⟩ => ⟨S8192x64x64, .f32⟩
  | .hbm, ⟨22, _⟩ => ⟨S8192x64x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x64x64, .f32⟩
  | .hbm, ⟨27, _⟩ => ⟨S8192x64x64, .f32⟩
  | .hbm, ⟨28, _⟩ => ⟨S_, .f32⟩
  | .hbm, ⟨29, _⟩ => ⟨S8192x64x64, .f32⟩
  | .hbm, ⟨30, _⟩ => ⟨S8192x64x64, .f32⟩
  | .hbm, ⟨31, _⟩ => ⟨S8192x64x64, .f32⟩
  | .hbm, ⟨32, _⟩ => ⟨S8192x64x64, .f32⟩
  | .hbm, ⟨33, _⟩ => ⟨S8192x4096, .f32⟩
  | .hbm, ⟨34, _⟩ => ⟨S4096x64x64, .f32⟩
  | .hbm, ⟨35, _⟩ => ⟨S4096x64x64, .f32⟩
  | .hbm, ⟨36, _⟩ => ⟨S_, .f32⟩
  | .hbm, ⟨37, _⟩ => ⟨S4096x64, .f32⟩
  | .hbm, ⟨38, _⟩ => ⟨S4096x64x1, .f32⟩
  | .hbm, ⟨39, _⟩ => ⟨S_, .f32⟩
  | .hbm, ⟨40, _⟩ => ⟨S4096x64x1, .f32⟩
  | .hbm, ⟨41, _⟩ => ⟨S4096x64x1, .f32⟩
  | .hbm, ⟨42, _⟩ => ⟨S_, .f32⟩
  | .hbm, ⟨43, _⟩ => ⟨S4096x64x1, .f32⟩
  | .hbm, ⟨44, _⟩ => ⟨S4096x64x1, .f32⟩
  | .hbm, ⟨45, _⟩ => ⟨S4096x64x64, .f32⟩
  | .hbm, ⟨46, _⟩ => ⟨S4096x64x64, .f32⟩
  | .hbm, ⟨47, _⟩ => ⟨S4096x64x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x64x64, .f32⟩
  | .hbm, ⟨52, _⟩ => ⟨S4096x64x64, .f32⟩
  | .hbm, ⟨53, _⟩ => ⟨S_, .f32⟩
  | .hbm, ⟨54, _⟩ => ⟨S4096x64x64, .f32⟩
  | .hbm, ⟨55, _⟩ => ⟨S4096x64x64, .f32⟩
  | .hbm, ⟨56, _⟩ => ⟨S4096x64x64, .f32⟩
  | .hbm, ⟨57, _⟩ => ⟨S4096x64x64, .f32⟩
  | .hbm, ⟨58, _⟩ => ⟨S4096x4096, .f32⟩
  | .hbm, ⟨59, _⟩ => ⟨S8192x4096, .f32⟩
  | .hbm, ⟨60, _⟩ => ⟨S8192x32, .f32⟩
  | .hbm, ⟨61, _⟩ => ⟨S8192x4096, .f32⟩
  | .hbm, ⟨62, _⟩ => ⟨S8192x4096, .f32⟩
  | .hbm, ⟨63, _⟩ => ⟨S1x4096, .f32⟩
  | .hbm, ⟨64, _⟩ => ⟨S8192x4096, .f32⟩
  | .hbm, ⟨65, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_cst_8 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x64x64 : S8192x4096.ShapeCasts S8192x64x64
  reducesTo_S8192x64x64_S8192x64_d2 : S8192x64x64.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x64_0_1_2 : S8192x64x1.BroadcastsInDim S8192x64x64 (![0, 1, 2] : Fin 3 → Fin S8192x64x64.rank)
  bcast_S_S8192x64x64 : S_.BroadcastsInDim S8192x64x64 (![] : Fin 0 → Fin S8192x64x64.rank)
  shapeCasts_S8192x64x64_S8192x4096 : S8192x64x64.ShapeCasts S8192x4096
  shapeCasts_S4096x4096_S4096x64x64 : S4096x4096.ShapeCasts S4096x64x64
  reducesTo_S4096x64x64_S4096x64_d2 : S4096x64x64.ReducesTo [2] S4096x64
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64x1_S4096x64x64_0_1_2 : S4096x64x1.BroadcastsInDim S4096x64x64 (![0, 1, 2] : Fin 3 → Fin S4096x64x64.rank)
  bcast_S_S4096x64x64 : S_.BroadcastsInDim S4096x64x64 (![] : Fin 0 → Fin S4096x64x64.rank)
  shapeCasts_S4096x64x64_S4096x4096 : S4096x64x64.ShapeCasts S4096x4096
  dot_S8192x4096_S4096x4096_S8192x4096_1_1_0_0_n_n_wf : DotDims.WF S8192x4096 S4096x4096 S8192x4096 [1] [1] [0] [0] [] []
  dot_S8192x4096_S4096x32_S8192x32_1_0_0_1_n_n_wf : DotDims.WF S8192x4096 S4096x32 S8192x32 [1] [0] [0] [1] [] []
  dot_S8192x32_S4096x32_S8192x4096_1_1_0_0_n_n_wf : DotDims.WF S8192x32 S4096x32 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S4096x32_S8192x32_1_0_0_1_n_n : DotDims S8192x4096 S4096x32 S8192x32 where
  lhsContracting := [1]
  rhsContracting := [0]
  lhsNonContracting := [0]
  rhsNonContracting := [1]
  lhsBatch := []
  rhsBatch := []
  wf := dot_S8192x4096_S4096x32_S8192x32_1_0_0_1_n_n_wf
def dot_S8192x32_S4096x32_S8192x4096_1_1_0_0_n_n : DotDims S8192x32 S4096x32 S8192x4096 where
  lhsContracting := [1]
  rhsContracting := [1]
  lhsNonContracting := [0]
  rhsNonContracting := [0]
  lhsBatch := []
  rhsBatch := []
  wf := dot_S8192x32_S4096x32_S8192x4096_1_1_0_0_n_n_wf

class Facts : Prop extends Facts₀ where

variable [Facts]
-- ==== Proof.K.R0.lean ====
/-
  The low-rank projection kernel (the first of the two pallas_calls) on its grid of 16 row tiles: at tile `i` it
  reads rows `512 i … 512 i + 511` of `x`, the whole scaling row and the whole down-projection, and writes the
  `512 × 32` tile `(x ⊙ smooth) · lora_down` of the projection. One control case, whole-buffer loads and one
  whole-buffer store: what the output's staging buffer holds after the body is the store's payload of the three
  input blocks, and the proof data of the pipeline states exactly that at every tile.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the projection kernel's region is entered
variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of `x`: its staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The scaling row: fetched once, its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The down-projection: likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four accesses: each the whole of its buffer. -/
abbrev r0_0 : Rect S512x4096 := Rect.unit (s := S512x4096) ![0, 0] S512x4096.size inb_S512x4096_S512x4096_0_0
abbrev r0_1 : Rect S1x4096 := Rect.unit (s := S1x4096) ![0, 0] S1x4096.size inb_S1x4096_S1x4096_0_0
abbrev r0_2 : Rect S4096x32 := Rect.unit (s := S4096x32) ![0, 0] S4096x32.size inb_S4096x32_S4096x32_0_0
abbrev r0_3 : Rect S512x32 := Rect.unit (s := S512x32) ![0, 0] S512x32.size inb_S512x32_S512x32_0_0

/-- What the body leaves in the projection tile's staging buffer, from the three input blocks: its one store. -/
def out0_3 (x0 : Vec F S512x4096 .f32) (x1 : Vec F S1x4096 .f32) (x2 : Vec F S4096x32 .bf16) : Vec F S512x32 .f32 :=
  View.canon [⟨r0_3, k0_pay1 (View.ld x0 r0_0) (View.ld x1 r0_1) (View.ld x2 r0_2)⟩]

/-- The one store covers the buffer. -/
theorem cover0_3 (p0 : Vec F S512x32 .f32) (y : S512x32.Idx) :
    ∃ pc ∈ ([⟨r0_3, p0⟩] : List (View.Piece (Elt F) S512x32 .f32)), y ∈ pc.1.set :=
  View.cover_of_tiled [⟨r0_3, p0⟩] S512x32.size (by rfl) y

set_option maxHeartbeats 1000000 in
/-- The body on whole staging memrefs, the inputs' at `x0`, `x1`, `x2` and the output's at anything, runs to the
    continuation with the inputs' unchanged and the output's at `out0_3` of them. -/
theorem sound_kernel0 (c : Dev nD) (E : Set ℕ) (i : grid0.Coords) (arg1 : Memref sig .tc .vmem S512x4096 .f32) (harg1 : arg1.IsWhole) (arg2 : Memref sig .tc .vmem S1x4096 .f32) (harg2 : arg2.IsWhole)
    (arg3 : Memref sig .tc .vmem S4096x32 .bf16) (harg3 : arg3.IsWhole) (arg4 : Memref sig .tc .vmem S512x32 .f32) (harg4 : arg4.IsWhole)
    (x0 : Vec F S512x4096 .f32) (x1 : Vec F S1x4096 .f32) (x2 : Vec F S4096x32 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__lora_proj_kernel i arg1 harg1 arg2 harg2 arg3 harg3 arg4 harg4) K := by
  simp only [cc0__lora_proj_kernel_eq_skeleton]; unfold cc0__lora_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the projection kernel's pipeline on core `c`: the arrays as the region finds them; after the
    body at tile `t` each input's buffer at its block and the output's at `out0_3` of the blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Common.lean ====
/-
  The main kernel (the second pallas_call) on its grid of 16 × 8 × 4 points `(i, j, k)`: what its three control
  cases are stated over. At `k = 0` the body clears its `512 × 512` accumulator; at every point it adds to it the
  product of the quantised `(i, k)` tile of `x ⊙ smooth` with the quantised `(j, k)` tile of `w_res`; at `k = 3`
  it writes accumulator + low-rank term + bias to the output tile `(i, j)`. So the two branch conditions, decided
  over the grid, give three cases: the first column step (clear, add), a middle step (add), the last step (add, write);
  the output window is idle, and not written back, at every point but the last step.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared: the reduction coordinate `k` is zero. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output tile is written: `k` is the last reduction step. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The six input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last reduction step the output window is idle and is not written back; at the last step it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window, and the accumulator, as views through which contents are stated. -/
abbrev VO1_6 : View sig .tc .vmem S512x512 .f32 := (Memref.whole cc1_stg6_0 : Memref sig .tc .vmem S512x512 .f32).view
abbrev scM1 : Memref sig .tc .vmem S512x512 .f32 := Memref.whole cc1_scratch0
abbrev VS1 : View sig .tc .vmem S512x512 .f32 := scM1.view

/-- Each window's current staging memref at point `t`, as the pipeline passes it to the body. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x32 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .f32 := win1_6.stage (cfg1.slots t 6)
abbrev hs1_6 (t : Fin cfg1.N) : (ms1_6 t).IsWhole := hstage1_6 ((cfg1.slots t 6).cast nbuf1_6)

/-- The scoped buffers of the core that are neither a staging buffer of this kernel nor its accumulator (the
    projection kernel's six staging buffers), each whole at some contents, beside what is said of the accumulator. -/
def withOthers1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The class invariant of this kernel's region with the accumulator owned as a memref at some contents. -/
theorem PhiA1_eq (c : Dev nD) :
    (Pipeline.ΦA spec1 c : sProp 𝕄)
      = iprop(withOthers1 c (iprop(∃ d, owns (c : Thread nD τ) scM1 fullShare d)) ∗ (∃ r, prngReg c r)) := by
  unfold Pipeline.ΦA withOthers1; rw [scopedRest1_eq]; simp only [scM1, owns_whole]; try rfl

/-- The other buffers ride along unchanged when the accumulator's statement changes. -/
theorem withOthers1_mono (c : Dev nD) {P Q : sProp 𝕄} (h : P ⊢ Q) : withOthers1 c P ⊢ withOthers1 c Q := by
  unfold withOthers1
  iintro ⟨H0, H1, H2, H3, H4, H5, HP⟩
  isplitl [H0]; · iexact H0
  isplitl [H1]; · iexact H1
  isplitl [H2]; · iexact H2
  isplitl [H3]; · iexact H3
  isplitl [H4]; · iexact H4
  isplitl [H5]; · iexact H5
  iapply h; iexact HP

end Cert.Kernel.Hand

end
-- ==== Proof.K.R1RunA.lean ====
/-
  The main kernel's body at a first reduction step (`k = 0`): the accumulator, whatever it held, is cleared and then receives this step's product; the output tile's buffer is not touched. The pieces stored into the accumulator are the witness the symbolic run finds.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import proofs.«140118_j56727928045732_1_alg».proof.Proof.K.R1Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) :
    { LS : List (View.Piece (Elt F) S512x512 .f32) //
      ∀ (xi6 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Hand

end
-- ==== Proof.K.R1RunB.lean ====
/-
  The main kernel's body at a middle reduction step (`k = 1, 2`): the accumulator, at what the step before left, receives this step's product; the output tile's buffer is not touched.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import proofs.«140118_j56727928045732_1_alg».proof.Proof.K.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) :
    { LS : List (View.Piece (Elt F) S512x512 .f32) //
      ∀ (xi6 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Hand

end
-- ==== Proof.K.R1RunC.lean ====
/-
  The main kernel's body at the last reduction step (`k = 3`): the accumulator receives this step's product, and the output tile's buffer, whatever it held, receives accumulator + low-rank term + bias.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import proofs.«140118_j56727928045732_1_alg».proof.Proof.K.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) :
    Σ' (L6 : List (View.Piece (Elt F) S512x512 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.Kernel.Hand

end
-- ==== Proof.K.R1.lean ====
/-
  The main kernel's region: its proof data. Along the grid's linear order the reduction coordinate `k` is the point's
  index mod 4, so the accumulator after point `n` is defined by recursion on `n`: at `n ≡ 0` what the first-step
  case leaves (cleared, then this step's product), otherwise what the middle or last case leaves over the accumulator
  of point `n - 1`; the output tile's buffer holds, after a last step, what that case stores (accumulator + low-rank
  term + bias), and is untouched elsewhere. The region's invariant carries the accumulator at exactly these contents
  from one point to the next, beside the core's other scoped buffers and its generator register.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import proofs.«140118_j56727928045732_1_alg».proof.Proof.K.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (y : S512x512.Idx) :
    ∃ pc ∈ (kernelRun1_A c i arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).1 S512x512.size (by sl_kernel_rfl) y
/-- The accumulator after a first step. -/
def sout1_A (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) : Vec F S512x512 .f32 :=
  VS1.read (Elt F) (VS1.writes (Elt F) VS1.junk (kernelRun1_A c i arg3 harg3 arg4 harg4 arg5 harg5 arg6 harg6 arg7 harg7 arg8 harg8 arg9 harg9 arg10 harg10 hc0 hc1 x0 x1 x2 x3 x4 x5).1)

theorem scover1_B (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) (y : S512x512.Idx) :
    ∃ pc ∈ (kernelRun1_B c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).1 S512x512.size (by sl_kernel_rfl) y
/-- The accumulator after a middle step, over what the step before left. -/
def sout1_B (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) : Vec F S512x512 .f32 :=
  VS1.read (Elt F) (VS1.writes (Elt F) VS1.junk (kernelRun1_B c i arg3 harg3 arg4 harg4 arg5 harg5 arg6 harg6 arg7 harg7 arg8 harg8 arg9 harg9 arg10 harg10 hc0 hc1 x0 x1 x2 x3 x4 x5 xs0).1)

theorem cover1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) (y : S512x512.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S512x512.size (by sl_kernel_rfl) y
/-- The output tile after a last step. -/
def out1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) : Vec F S512x512 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)
theorem scover1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) (y : S512x512.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S512x512.size (by sl_kernel_rfl) y
/-- The accumulator after a last step. -/
def sout1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) : Vec F S512x512 .f32 :=
  VS1.read (Elt F) (VS1.writes (Elt F) VS1.junk (kernelRun1_C c i arg3 harg3 arg4 harg4 arg5 harg5 arg6 harg6 arg7 harg7 arg8 harg8 arg9 harg9 arg10 harg10 hc0 hc1 x0 x1 x2 x3 x4 x5 xs0).2.1)

/-- What the output tile's buffer is said to hold where the body does not store into it: nothing consults it. -/
def idleOut : Vec F S512x512 .f32 := VO1_6.read (Elt F) VO1_6.junk

/-! ## Point by point -/

/-- The output tile's buffer and the accumulator after the body at position `n`. -/
def outsAt1 (c : Dev nD) : (n : ℕ) → n < cfg1.N → Vec F S512x512 .f32 × Vec F S512x512 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, the core's other scoped buffers at anything, and the
    generator register at some state. -/
def PhiS (c : Dev nD) : (n : ℕ) → n ≤ cfg1.N → sProp 𝕄
  | 0, _ => Pipeline.ΦA spec1 c
  | n + 1, hn => iprop(withOthers1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers1 c (owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(withOthers1 c (owns (c : Thread nD τ) scM1 fullShare ((outsAt1 V c (n - 1) (by omega)).2)) ∗ (∃ r, prngReg c r)) := by
  cases n with
  | zero => exact absurd rfl hz
  | succ n => rfl

/-- The proof data of the main kernel's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the point's index mod 4 says which case it is in; the invariant hands the body the
    accumulator at what the point before left (at anything before the first point) and takes it back at this point's
    contents; the inputs' buffers hold their blocks; the output tile's buffer is handed back untouched off the last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A; (try dsimp only)
    by_cases hz : t.val = 0
    ·
      rw [PhiS_castSucc V c t, PhiS_zero V c _ _ hz, PhiA1_eq]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      rw [PhiS_castSucc V c t, PhiS_pos V c _ _ hz]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C sout1_C; (try dsimp only)
      rw [PhiS_castSucc V c t, PhiS_pos V c _ _ hz]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_C c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B; (try dsimp only)
      rw [PhiS_castSucc V c t, PhiS_pos V c _ _ hz]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_B c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  have hlt : t.val - 1 < cfg1.N := by have := t.isLt; omega
  rw [show (dat1 V c).Φ t = PhiS V c t.val (Nat.le_of_lt_succ t.isLt) from rfl, PhiS_pos V c _ _ ht, PhiA1_eq]
  iintro ⟨HS, Hg⟩
  isplitl [HS]
  · iapply (withOthers1_mono c (show owns (c : Thread nD τ) scM1 fullShare ((outsAt1 V c (t.val - 1) hlt).2) ⊢ iprop(∃ d, owns (c : Thread nD τ) scM1 fullShare d) from by
      iintro H; iexists _; iexact H))
    iexact HS
  iexact Hg

theorem hout1 (c : Dev nD) : (dat1 V c).Φ (Fin.last cfg1.N) ⊢ Pipeline.ΦA spec1 c :=
  Phi_out1 V c _ (by rw [Fin.val_last]; have : cfg1.N = 512 := N_1; omega)

end Region1

end Cert.Kernel.Hand

end
-- ==== Proof.K.Run.lean ====
/-
  The whole program's run. @main is a line of four host operations (the scaling vector and the bias reshaped to one
  row each, the two low-rank factors narrowed), then the projection kernel's region, then the main kernel's region.
  The unscoped buffers' contents are followed from the launch through the three items: after the host line; after the
  projection region, whose output array holds what its write-backs leave; after the main region, likewise. Each region
  is entered by splitting its windows' arrays out of the unscoped buffers and left by putting them back; the generator
  register and the core's scoped buffers pass through each region's invariant. The run's post reads every unscoped
  buffer off the last contents.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import proofs.«140118_j56727928045732_1_alg».proof.Proof.K.R0
import proofs.«140118_j56727928045732_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host line (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit (the main region's entry): its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the main region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection kernel's region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main kernel's region over the thread state: the generator register and the scoped buffers enter its
    invariant at the first point (the accumulator at anything) and leave it after the last (the accumulator's
    contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    exact (hout1 (V2 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer of core `c` holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.K.Frames.lean ====
/-
  The frame claim from the run. The host line writes only its four results, a region changes only its output
  window's array, and an array a region reads through an input window ends the region as it entered it; so each
  of the six argument arrays is carried unchanged from the launch through the host line and both regions, and the
  run's last contents at an argument's buffer are the launch memory's.
-/
import proofs.«140118_j56727928045732_1_alg».proof.Proof.Gen.Kernel.Launch
import proofs.«140118_j56727928045732_1_alg».proof.Proof.Gen.Kernel.Skeleton
import proofs.«140118_j56727928045732_1_alg».proof.Proof.Gen.Kernel.Points
import proofs.«140118_j56727928045732_1_alg».proof.Proof.K.Run
import proofs.«140118_j56727928045732_1_alg».proof.Proof.Gen.Kernel.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arguments end as launched (at any instance) -/

section Frames
variable (m : (ℓ : Loc nD τ sig) → Buf (Elt F) ℓ) (ρ : Dev nD → PrngReg)

/-- The host line writes only its four results. -/
theorem W1_keep (c : Dev nD) (b : Ref sig .tc) (hb : b ∉ (hostOps0_W : List (Ref sig .tc))) :
    W1 m ρ c (Proc.devRef .tc b) = m ((c : Thread nD τ).loc b) :=
  (StableHlo.after_of_writes_sub hostOps0 _ hostOps0_writes hb).trans rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_keep m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = m ((c : Thread nD τ).loc main_arg1) := W1_keep m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_keep m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_keep m ρ c main_arg3 (by decide)
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := W1_keep m ρ c main_arg4 (by decide)
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_keep m ρ c main_arg5 (by decide)

/-- THE FRAME: every weakly fair execution of @main terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Frames

end Cert.Kernel.Hand

end
-- ==== Proof.KI.R0.lean ====
/-
  The low-rank projection kernel (the first of the two pallas_calls) on its grid of 16 row tiles: at tile `i` it
  reads rows `512 i … 512 i + 511` of `x`, the whole scaling row and the whole down-projection, and writes the
  `512 × 32` tile `(x ⊙ smooth) · lora_down` of the projection. One control case, whole-buffer loads and one
  whole-buffer store: what the output's staging buffer holds after the body is the store's payload of the three
  input blocks, and the proof data of the pipeline states exactly that at every tile.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the projection kernel's region is entered
variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of `x`: its staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The scaling row: fetched once, its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The down-projection: likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four accesses: each the whole of its buffer. -/
abbrev r0_0 : Rect S512x4096 := Rect.unit (s := S512x4096) ![0, 0] S512x4096.size inb_S512x4096_S512x4096_0_0
abbrev r0_1 : Rect S1x4096 := Rect.unit (s := S1x4096) ![0, 0] S1x4096.size inb_S1x4096_S1x4096_0_0
abbrev r0_2 : Rect S4096x32 := Rect.unit (s := S4096x32) ![0, 0] S4096x32.size inb_S4096x32_S4096x32_0_0
abbrev r0_3 : Rect S512x32 := Rect.unit (s := S512x32) ![0, 0] S512x32.size inb_S512x32_S512x32_0_0

/-- What the body leaves in the projection tile's staging buffer, from the three input blocks: its one store. -/
def out0_3 (x0 : Vec F S512x4096 .f32) (x1 : Vec F S1x4096 .f32) (x2 : Vec F S4096x32 .bf16) : Vec F S512x32 .f32 :=
  View.canon [⟨r0_3, k0_pay1 (View.ld x0 r0_0) (View.ld x1 r0_1) (View.ld x2 r0_2)⟩]

/-- The one store covers the buffer. -/
theorem cover0_3 (p0 : Vec F S512x32 .f32) (y : S512x32.Idx) :
    ∃ pc ∈ ([⟨r0_3, p0⟩] : List (View.Piece (Elt F) S512x32 .f32)), y ∈ pc.1.set :=
  View.cover_of_tiled [⟨r0_3, p0⟩] S512x32.size (by rfl) y

set_option maxHeartbeats 1000000 in
/-- The body on whole staging memrefs, the inputs' at `x0`, `x1`, `x2` and the output's at anything, runs to the
    continuation with the inputs' unchanged and the output's at `out0_3` of them. -/
theorem sound_kernel0 (c : Dev nD) (E : Set ℕ) (i : grid0.Coords) (arg1 : Memref sig .tc .vmem S512x4096 .f32) (harg1 : arg1.IsWhole) (arg2 : Memref sig .tc .vmem S1x4096 .f32) (harg2 : arg2.IsWhole)
    (arg3 : Memref sig .tc .vmem S4096x32 .bf16) (harg3 : arg3.IsWhole) (arg4 : Memref sig .tc .vmem S512x32 .f32) (harg4 : arg4.IsWhole)
    (x0 : Vec F S512x4096 .f32) (x1 : Vec F S1x4096 .f32) (x2 : Vec F S4096x32 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__lora_proj_kernel i arg1 harg1 arg2 harg2 arg3 harg3 arg4 harg4) K := by
  simp only [cc0__lora_proj_kernel_eq_skeleton]; unfold cc0__lora_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the projection kernel's pipeline on core `c`: the arrays as the region finds them; after the
    body at tile `t` each input's buffer at its block and the output's at `out0_3` of the blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Common.lean ====
/-
  The main kernel (the second pallas_call) on its grid of 16 × 8 × 4 points `(i, j, k)`: what its three control
  cases are stated over. At `k = 0` the body clears its `512 × 512` accumulator; at every point it adds to it the
  product of the quantised `(i, k)` tile of `x ⊙ smooth` with the quantised `(j, k)` tile of `w_res`; at `k = 3`
  it writes accumulator + low-rank term + bias to the output tile `(i, j)`. So the two branch conditions, decided
  over the grid, give three cases: the first column step (clear, add), a middle step (add), the last step (add, write);
  the output window is idle, and not written back, at every point but the last step.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared: the reduction coordinate `k` is zero. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output tile is written: `k` is the last reduction step. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The six input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last reduction step the output window is idle and is not written back; at the last step it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window, and the accumulator, as views through which contents are stated. -/
abbrev VO1_6 : View sig .tc .vmem S512x512 .f32 := (Memref.whole cc1_stg6_0 : Memref sig .tc .vmem S512x512 .f32).view
abbrev scM1 : Memref sig .tc .vmem S512x512 .f32 := Memref.whole cc1_scratch0
abbrev VS1 : View sig .tc .vmem S512x512 .f32 := scM1.view

/-- Each window's current staging memref at point `t`, as the pipeline passes it to the body. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x32 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .f32 := win1_6.stage (cfg1.slots t 6)
abbrev hs1_6 (t : Fin cfg1.N) : (ms1_6 t).IsWhole := hstage1_6 ((cfg1.slots t 6).cast nbuf1_6)

/-- The scoped buffers of the core that are neither a staging buffer of this kernel nor its accumulator (the
    projection kernel's six staging buffers), each whole at some contents, beside what is said of the accumulator. -/
def withOthers1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The class invariant of this kernel's region with the accumulator owned as a memref at some contents. -/
theorem PhiA1_eq (c : Dev nD) :
    (Pipeline.ΦA spec1 c : sProp 𝕄)
      = iprop(withOthers1 c (iprop(∃ d, owns (c : Thread nD τ) scM1 fullShare d)) ∗ (∃ r, prngReg c r)) := by
  unfold Pipeline.ΦA withOthers1; rw [scopedRest1_eq]; simp only [scM1, owns_whole]; try rfl

/-- The other buffers ride along unchanged when the accumulator's statement changes. -/
theorem withOthers1_mono (c : Dev nD) {P Q : sProp 𝕄} (h : P ⊢ Q) : withOthers1 c P ⊢ withOthers1 c Q := by
  unfold withOthers1
  iintro ⟨H0, H1, H2, H3, H4, H5, HP⟩
  isplitl [H0]; · iexact H0
  isplitl [H1]; · iexact H1
  isplitl [H2]; · iexact H2
  isplitl [H3]; · iexact H3
  isplitl [H4]; · iexact H4
  isplitl [H5]; · iexact H5
  iapply h; iexact HP

end Cert.KernelIdeal.Hand

end
-- ==== Proof.KI.R1RunA.lean ====
/-
  The main kernel's body at a first reduction step (`k = 0`): the accumulator, whatever it held, is cleared and then receives this step's product; the output tile's buffer is not touched. The pieces stored into the accumulator are the witness the symbolic run finds.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R1Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) :
    { LS : List (View.Piece (Elt F) S512x512 .f32) //
      ∀ (xi6 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Hand

end
-- ==== Proof.KI.R1RunB.lean ====
/-
  The main kernel's body at a middle reduction step (`k = 1, 2`): the accumulator, at what the step before left, receives this step's product; the output tile's buffer is not touched.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) :
    { LS : List (View.Piece (Elt F) S512x512 .f32) //
      ∀ (xi6 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Hand

end
-- ==== Proof.KI.R1RunC.lean ====
/-
  The main kernel's body at the last reduction step (`k = 3`): the accumulator receives this step's product, and the output tile's buffer, whatever it held, receives accumulator + low-rank term + bias.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) :
    Σ' (L6 : List (View.Piece (Elt F) S512x512 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.KernelIdeal.Hand

end
-- ==== Proof.KI.R1.lean ====
/-
  The main kernel's region: its proof data. Along the grid's linear order the reduction coordinate `k` is the point's
  index mod 4, so the accumulator after point `n` is defined by recursion on `n`: at `n ≡ 0` what the first-step
  case leaves (cleared, then this step's product), otherwise what the middle or last case leaves over the accumulator
  of point `n - 1`; the output tile's buffer holds, after a last step, what that case stores (accumulator + low-rank
  term + bias), and is untouched elsewhere. The region's invariant carries the accumulator at exactly these contents
  from one point to the next, beside the core's other scoped buffers and its generator register.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (y : S512x512.Idx) :
    ∃ pc ∈ (kernelRun1_A c i arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).1 S512x512.size (by sl_kernel_rfl) y
/-- The accumulator after a first step. -/
def sout1_A (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) : Vec F S512x512 .f32 :=
  VS1.read (Elt F) (VS1.writes (Elt F) VS1.junk (kernelRun1_A c i arg3 harg3 arg4 harg4 arg5 harg5 arg6 harg6 arg7 harg7 arg8 harg8 arg9 harg9 arg10 harg10 hc0 hc1 x0 x1 x2 x3 x4 x5).1)

theorem scover1_B (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) (y : S512x512.Idx) :
    ∃ pc ∈ (kernelRun1_B c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).1 S512x512.size (by sl_kernel_rfl) y
/-- The accumulator after a middle step, over what the step before left. -/
def sout1_B (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) : Vec F S512x512 .f32 :=
  VS1.read (Elt F) (VS1.writes (Elt F) VS1.junk (kernelRun1_B c i arg3 harg3 arg4 harg4 arg5 harg5 arg6 harg6 arg7 harg7 arg8 harg8 arg9 harg9 arg10 harg10 hc0 hc1 x0 x1 x2 x3 x4 x5 xs0).1)

theorem cover1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) (y : S512x512.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S512x512.size (by sl_kernel_rfl) y
/-- The output tile after a last step. -/
def out1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) : Vec F S512x512 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)
theorem scover1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) (y : S512x512.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S512x512.size (by sl_kernel_rfl) y
/-- The accumulator after a last step. -/
def sout1_C (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) : Vec F S512x512 .f32 :=
  VS1.read (Elt F) (VS1.writes (Elt F) VS1.junk (kernelRun1_C c i arg3 harg3 arg4 harg4 arg5 harg5 arg6 harg6 arg7 harg7 arg8 harg8 arg9 harg9 arg10 harg10 hc0 hc1 x0 x1 x2 x3 x4 x5 xs0).2.1)

/-- What the output tile's buffer is said to hold where the body does not store into it: nothing consults it. -/
def idleOut : Vec F S512x512 .f32 := VO1_6.read (Elt F) VO1_6.junk

/-! ## Point by point -/

/-- The output tile's buffer and the accumulator after the body at position `n`. -/
def outsAt1 (c : Dev nD) : (n : ℕ) → n < cfg1.N → Vec F S512x512 .f32 × Vec F S512x512 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, the core's other scoped buffers at anything, and the
    generator register at some state. -/
def PhiS (c : Dev nD) : (n : ℕ) → n ≤ cfg1.N → sProp 𝕄
  | 0, _ => Pipeline.ΦA spec1 c
  | n + 1, hn => iprop(withOthers1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(withOthers1 c (owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(withOthers1 c (owns (c : Thread nD τ) scM1 fullShare ((outsAt1 V c (n - 1) (by omega)).2)) ∗ (∃ r, prngReg c r)) := by
  cases n with
  | zero => exact absurd rfl hz
  | succ n => rfl

/-- The proof data of the main kernel's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the point's index mod 4 says which case it is in; the invariant hands the body the
    accumulator at what the point before left (at anything before the first point) and takes it back at this point's
    contents; the inputs' buffers hold their blocks; the output tile's buffer is handed back untouched off the last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold sout1_A; (try dsimp only)
    by_cases hz : t.val = 0
    ·
      rw [PhiS_castSucc V c t, PhiS_zero V c _ _ hz, PhiA1_eq]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      rw [PhiS_castSucc V c t, PhiS_pos V c _ _ hz]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_A c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C sout1_C; (try dsimp only)
      rw [PhiS_castSucc V c t, PhiS_pos V c _ _ hz]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_C c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B; (try dsimp only)
      rw [PhiS_castSucc V c t, PhiS_pos V c _ _ hz]
      unfold withOthers1
      iintro ⟨⟨⟨HA0, HA1, HA2, HA3, HA4, HA5, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HA0 HA1 HA2 HA3 HA4 HA5 HS Hg]
      · isplitl [HA0 HA1 HA2 HA3 HA4 HA5 HS]
        · (try unfold withOthers1)
          isplitl [HA0]; · iexact HA0
          isplitl [HA1]; · iexact HA1
          isplitl [HA2]; · iexact HA2
          isplitl [HA3]; · iexact HA3
          isplitl [HA4]; · iexact HA4
          isplitl [HA5]; · iexact HA5
          unfold owns; iexists _; isplitr
          swap; · iexact HS
          ipureintro; exact View.read_writes_of_cover _ _ _ _ _ (scover1_B c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  have hlt : t.val - 1 < cfg1.N := by have := t.isLt; omega
  rw [show (dat1 V c).Φ t = PhiS V c t.val (Nat.le_of_lt_succ t.isLt) from rfl, PhiS_pos V c _ _ ht, PhiA1_eq]
  iintro ⟨HS, Hg⟩
  isplitl [HS]
  · iapply (withOthers1_mono c (show owns (c : Thread nD τ) scM1 fullShare ((outsAt1 V c (t.val - 1) hlt).2) ⊢ iprop(∃ d, owns (c : Thread nD τ) scM1 fullShare d) from by
      iintro H; iexists _; iexact H))
    iexact HS
  iexact Hg

theorem hout1 (c : Dev nD) : (dat1 V c).Φ (Fin.last cfg1.N) ⊢ Pipeline.ΦA spec1 c :=
  Phi_out1 V c _ (by rw [Fin.val_last]; have : cfg1.N = 512 := N_1; omega)

end Region1

end Cert.KernelIdeal.Hand

end
-- ==== Proof.KI.Run.lean ====
/-
  The whole program's run. @main is a line of four host operations (the scaling vector and the bias reshaped to one
  row each, the two low-rank factors narrowed), then the projection kernel's region, then the main kernel's region.
  The unscoped buffers' contents are followed from the launch through the three items: after the host line; after the
  projection region, whose output array holds what its write-backs leave; after the main region, likewise. Each region
  is entered by splitting its windows' arrays out of the unscoped buffers and left by putting them back; the generator
  register and the core's scoped buffers pass through each region's invariant. The run's post reads every unscoped
  buffer off the last contents.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R0
import proofs.«140118_j56727928045732_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host line (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit (the main region's entry): its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the main region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection kernel's region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main kernel's region over the thread state: the generator register and the scoped buffers enter its
    invariant at the first point (the accumulator at anything) and leave it after the last (the accumulator's
    contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    exact (hout1 (V2 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer of core `c` holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KI.Frames.lean ====
/-
  The frame claim from the run. The host line writes only its four results, a region changes only its output
  window's array, and an array a region reads through an input window ends the region as it entered it; so each
  of the six argument arrays is carried unchanged from the launch through the host line and both regions, and the
  run's last contents at an argument's buffer are the launch memory's.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.Run
import proofs.«140118_j56727928045732_1_alg».proof.Proof.Gen.KernelIdeal.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arguments end as launched (at any instance) -/

section Frames
variable (m : (ℓ : Loc nD τ sig) → Buf (Elt F) ℓ) (ρ : Dev nD → PrngReg)

/-- The host line writes only its four results. -/
theorem W1_keep (c : Dev nD) (b : Ref sig .tc) (hb : b ∉ (hostOps0_W : List (Ref sig .tc))) :
    W1 m ρ c (Proc.devRef .tc b) = m ((c : Thread nD τ).loc b) :=
  (StableHlo.after_of_writes_sub hostOps0 _ hostOps0_writes hb).trans rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_keep m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = m ((c : Thread nD τ).loc main_arg1) := W1_keep m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_keep m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_keep m ρ c main_arg3 (by decide)
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := W1_keep m ρ c main_arg4 (by decide)
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_keep m ρ c main_arg5 (by decide)

/-- THE FRAME: every weakly fair execution of @main terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Frames

end Cert.KernelIdeal.Hand

end
-- ==== Proof.KI.Arr.lean ====
/-
  The arrays a region finds, each at its literal type: entries of these are extended reals one can add and multiply.
-/
import proofs.«140118_j56727928045732_1_alg».proof.Proof.Gen.KernelIdeal
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- The activation, the weight, the scaling row, the bias row, the narrowed down- and up-projections, the projection. -/
abbrev aX (c : Dev nD) : S8192x4096.Idx → EReal := V c main_arg0
abbrev aW (c : Dev nD) : S4096x4096.Idx → EReal := V c main_arg1
abbrev aS (c : Dev nD) : S1x4096.Idx → EReal := V c main_v0
abbrev aB (c : Dev nD) : S1x4096.Idx → EReal := V c main_v1
abbrev aDown (c : Dev nD) : S4096x32.Idx → EReal := V c main_v2
abbrev aUp (c : Dev nD) : S4096x32.Idx → EReal := V c main_v3
abbrev aProj (c : Dev nD) : S8192x32.Idx → EReal := V c main_v4

end Cert.KernelIdeal.Hand

end
-- ==== Proof.KI.Pieces.lean ====
/-
  What the kernels' stores leave, named by their payloads. Every store of either kernel writes a whole buffer, and
  every load reads one, so the pieces the symbolic runs found read back as the payload of the last store: the
  projection tile is the matmul payload of its three blocks; the accumulator after a first reduction step is the
  accumulation payload over the cleared accumulator, after a later step over what the step before left; the output
  tile after a last step is the final payload of the low-rank blocks, the updated accumulator and the bias row.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R0
import proofs.«140118_j56727928045732_1_alg».proof.Proof.KI.R1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle of a rank-two buffer starts at the zero offset. -/
private theorem zero2 : (![0, 0] : Fin 2 → Nat) = fun _ => 0 := funext fun a => by fin_cases a <;> rfl

/-- The projection tile after the body. -/
theorem out0_3_eq (x0 : Vec F S512x4096 .f32) (x1 : Vec F S1x4096 .f32) (x2 : Vec F S4096x32 .bf16) :
    out0_3 x0 x1 x2 = k0_pay1 x0 x1 x2 := by
  unfold out0_3
  rw [View.canon_unit_zero zero2]
  simp only [View.ld_unit_zero (S := S512x4096) zero2, View.ld_unit_zero (S := S1x4096) zero2,
    View.ld_unit_zero (S := S4096x32) zero2]

/-- The accumulator after a first reduction step: this step's product added to the cleared accumulator. -/
theorem sout1_A_eq (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) :
    sout1_A c i arg3 harg3 arg4 harg4 arg5 harg5 arg6 harg6 arg7 harg7 arg8 harg8 arg9 harg9 arg10 harg10 hc0 hc1 x0 x1 x2 x3 x4 x5
      = k1_pay1 (k1_pay4 x0 x2) (k1_pay6 x1) (k1_pay7 x1) (Scalar.ofBits .f32 0xC1000000#32) (Scalar.ofBits .f32 0x40E00000#32) (k1_pay3 (F := F)) := by
  unfold sout1_A
  rw [View.read_writes_eq_canon _ _ _ (scover1_A c i arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S512x512) zero2, View.readCov_unit_zero (S := S512x512) _ zero2]
  simp only [View.readAt_eq_ld, harg3.read_unread, harg4.read_unread, harg5.read_unread,
    View.ld_unit_zero (S := S512x1024) zero2, View.ld_unit_zero (S := S1x1024) zero2]

/-- The accumulator after a middle reduction step. -/
theorem sout1_B_eq (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : ¬cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) :
    sout1_B c i arg3 harg3 arg4 harg4 arg5 harg5 arg6 harg6 arg7 harg7 arg8 harg8 arg9 harg9 arg10 harg10 hc0 hc1 x0 x1 x2 x3 x4 x5 xs0
      = k1_pay1 (k1_pay4 x0 x2) (k1_pay6 x1) (k1_pay7 x1) (Scalar.ofBits .f32 0xC1000000#32) (Scalar.ofBits .f32 0x40E00000#32) xs0 := by
  unfold sout1_B
  rw [View.read_writes_eq_canon _ _ _ (scover1_B c i arg3 harg3 arg4 harg4 arg5 harg5 arg6 harg6 arg7 harg7 arg8 harg8 arg9 harg9 arg10 harg10 hc0 hc1 x0 x1 x2 x3 x4 x5 xs0)]
  unfold kernelRun1_B
  dsimp only
  sl_unfold_words
  rw [View.canon_unit_zero zero2]
  simp only [View.readAt_eq_ld, harg3.read_unread, harg4.read_unread, harg5.read_unread, harg10.read_unread,
    View.ld_unit_zero (S := S512x1024) zero2, View.ld_unit_zero (S := S1x1024) zero2,
    View.ld_unit_zero (S := S512x512) zero2]

/-- The accumulator after a last reduction step. -/
theorem sout1_C_eq (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) :
    sout1_C c i arg3 harg3 arg4 harg4 arg5 harg5 arg6 harg6 arg7 harg7 arg8 harg8 arg9 harg9 arg10 harg10 hc0 hc1 x0 x1 x2 x3 x4 x5 xs0
      = k1_pay1 (k1_pay4 x0 x2) (k1_pay6 x1) (k1_pay7 x1) (Scalar.ofBits .f32 0xC1000000#32) (Scalar.ofBits .f32 0x40E00000#32) xs0 := by
  unfold sout1_C
  rw [View.read_writes_eq_canon _ _ _ (scover1_C c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero zero2]
  simp only [View.readAt_eq_ld, harg3.read_unread, harg4.read_unread, harg5.read_unread, harg10.read_unread,
    View.ld_unit_zero (S := S512x1024) zero2, View.ld_unit_zero (S := S1x1024) zero2,
    View.ld_unit_zero (S := S512x512) zero2]

/-- The output tile after a last reduction step. -/
theorem out1_C_eq (c : Dev nD) (i : grid1.Coords) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S512x32 .f32) (harg7 : arg7.IsWhole) (arg8 : Memref sig .tc .vmem S512x32 .bf16) (harg8 : arg8.IsWhole) (arg9 : Memref sig .tc .vmem S512x512 .f32) (harg9 : arg9.IsWhole) (arg10 : Memref sig .tc .vmem S512x512 .f32) (harg10 : arg10.IsWhole) (hc0 : ¬cond1_0 i) (hc1 : cond1_1 i)
    (x0 : Vec F S512x1024 .f32) (x1 : Vec F S512x1024 .f32) (x2 : Vec F S1x1024 .f32) (x3 : Vec F S1x512 .f32) (x4 : Vec F S512x32 .f32) (x5 : Vec F S512x32 .bf16) (xs0 : Vec F S512x512 .f32) :
    out1_C c i arg3 harg3 arg4 harg4 arg5 harg5 arg6 harg6 arg7 harg7 arg8 harg8 arg9 harg9 arg10 harg10 hc0 hc1 x0 x1 x2 x3 x4 x5 xs0
      = k1_pay2 x4 x5 (k1_pay1 (k1_pay4 x0 x2) (k1_pay6 x1) (k1_pay7 x1) (Scalar.ofBits .f32 0xC1000000#32) (Scalar.ofBits .f32 0x40E00000#32) xs0) x3 := by
  unfold out1_C
  rw [View.read_writes_eq_canon _ _ _ (cover1_C c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero zero2]
  simp only [View.readAt_eq_ld, harg3.read_unread, harg4.read_unread, harg5.read_unread, harg6.read_unread,
    harg7.read_unread, harg8.read_unread, harg10.read_unread,
    View.readCov_unit_zero (S := S512x512) _ zero2,
    View.ld_unit_zero (S := S512x1024) zero2, View.ld_unit_zero (S := S1x1024) zero2,
    View.ld_unit_zero (S := S512x512) zero2, View.ld_unit_zero (S := S512x32) zero2,
    View.ld_unit_zero (S := S1x512) zero2]

end Cert.KernelIdeal.Hand

end
-- ==== Proof.Spec.lean ====
/-
  What both programs compute, as one function of the six argument arrays over the extended reals.

  A row of 4096 numbers is quantised in 64 groups of 64 consecutive entries: the group's scale is
  `max (absmax / 7) ε`, an entry `t` of the group becomes `clamp (roundeven (t / scale)) (-8) 7 · scale`.
  With `xs = x ⊙ smooth` (each row of `x` times the scaling vector), the result at row `r`, column `n` is

      (∑ₖ q(xs r) k · q(w n) k)  +  ∑ᵨ (∑ₖ xs r k · down k ρ) · up n ρ  +  b n.

  The four float literals stay as their binary words: both programs spell the same words, so they are never evaluated.
-/
import Idealize.ShloMosaic.PureOps.Ideal
import Idealize.ShloMosaic.PureOps.Ideal.Laws
import Idealize.ShloMosaic.Lib.ValueIdx

noncomputable section

namespace Cert.Spec

open Idealize.ShloMosaic

/-- The four literals of the quantiser: -∞ (the maximum's start), 7, -8, and the scale's floor ε. -/
abbrev negInf : EReal := Ideal.ofBits .f32 0xFF800000#32
abbrev seven : EReal := Ideal.ofBits .f32 0x40E00000#32
abbrev negEight : EReal := Ideal.ofBits .f32 0xC1000000#32
abbrev eps : EReal := Ideal.ofBits .f32 0x322BCC77#32

/-- A group's largest absolute value: the fold of `max` from -∞ over its 64 entries' `max v (-v)`. -/
def absMax (v : Fin 64 → EReal) : EReal :=
  (Finset.univ : Finset (Fin 64)).fold max negInf (fun l => max (v l) (-(v l)))

/-- A group's scale. -/
def scale (v : Fin 64 → EReal) : EReal := max (Ideal.div (absMax v) seven) eps

/-- An entry `t` quantised at scale `s`. -/
def quantAt (s t : EReal) : EReal :=
  min seven (max negEight (Ideal.liftRound Ideal.roundHalfEven (Ideal.div t s))) * s

/-- Group `g` of a row. -/
def group (a : Fin 4096 → EReal) (g : Fin 64) : Fin 64 → EReal :=
  fun l => a ⟨g.val * 64 + l.val, by have := g.isLt; have := l.isLt; omega⟩

/-- A row quantised, at column `k`: its group is `k / 64`. -/
def quant (a : Fin 4096 → EReal) (k : Fin 4096) : EReal :=
  quantAt (scale (group a ⟨k.val / 64, by have := k.isLt; omega⟩)) (a k)

/-- The smoothed activation. -/
def smoothed (x : Fin 8192 → Fin 4096 → EReal) (s : Fin 4096 → EReal) (r : Fin 8192) (k : Fin 4096) : EReal := x r k * s k

/-- The low-rank projection `(x ⊙ smooth) · down`. -/
def proj (x : Fin 8192 → Fin 4096 → EReal) (s : Fin 4096 → EReal) (down : Fin 4096 → Fin 32 → EReal) (r : Fin 8192) (ρ : Fin 32) : EReal :=
  ∑ k : Fin 4096, smoothed x s r k * down k ρ

/-- The whole result. -/
def G (x : Fin 8192 → Fin 4096 → EReal) (w : Fin 4096 → Fin 4096 → EReal) (down up : Fin 4096 → Fin 32 → EReal)
    (s b : Fin 4096 → EReal) (r : Fin 8192) (n : Fin 4096) : EReal :=
  ((∑ k : Fin 4096, quant (smoothed x s r) k * quant (w n) k)
    + ∑ ρ : Fin 32, proj x s down r ρ * up n ρ) + b n

end Cert.Spec

end
-- ==== Proof.KI.PayMath.lean ====
/-
  The kernels' payloads read at an index over the extended reals. A change of float format is the identity there, a
  matmul into the zero accumulator is the plain sum over the contracted axis, and the per-group quantiser of a
  `512 × 1024` tile, reshaped to `512 × 16 × 64`, is the specification's quantiser applied to the tile's row:
  the group of column `kk` is `kk / 64`, its 64 entries are columns `64 (kk / 64) … 64 (kk / 64) + 63`.
-/
import proofs.«140118_j56727928045732_1_alg».proof.Proof.Gen.KernelIdeal.Skeleton
import proofs.«140118_j56727928045732_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayMath

open Cert.KernelIdeal Cert.KernelIdeal.Gen Cert.Spec
open Idealize.ShloMosaic Idealize.ShloMosaic.ValueIdx

/-- A 1024-wide tile row quantised, at column `kk`: the specification's quantiser on the row's group `kk / 64`. -/
def tileQuant (a : Fin 1024 → EReal) (kk : Fin 1024) : EReal :=
  quantAt (scale (fun l : Fin 64 => a ⟨(kk.val / 64) * 64 + l.val, by have := kk.isLt; have := l.isLt; omega⟩)) (a kk)

/-! ## The projection's dot: operand indices by axis -/

theorem lhs_proj_0 (i : S512x32.Idx) (q : dot_S512x4096_S4096x32_S512x32_1_0_0_1_n_n.contr.Idx) :
    (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
theorem lhs_proj_1 (i : S512x32.Idx) (q : dot_S512x4096_S4096x32_S512x32_1_0_0_1_n_n.contr.Idx) :
    (dot_S512x4096_S4096x32_S512x32_1_0_0_1_n_n.lhsIdx i q 1).val = (q ⟨0, by decide⟩).val :=
  dot_S512x4096_S4096x32_S512x32_1_0_0_1_n_n.lhsIdx_val_of_single rfl i q
theorem rhs_proj_0 (i : S512x32.Idx) (q : dot_S512x4096_S4096x32_S512x32_1_0_0_1_n_n.contr.Idx) :
    (dot_S512x4096_S4096x32_S512x32_1_0_0_1_n_n.rhsIdx i q 0).val = (q ⟨0, by decide⟩).val :=
  dot_S512x4096_S4096x32_S512x32_1_0_0_1_n_n.rhsIdx_val_of_single rfl i q
theorem rhs_proj_1 (i : S512x32.Idx) (q : dot_S512x4096_S4096x32_S512x32_1_0_0_1_n_n.contr.Idx) :
    (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- A product into the zero accumulator, contracting the left operand's columns with the right operand's rows. -/
theorem matmul_proj_apply (A : FVec Ideal S512x4096 .bf16) (B : FVec Ideal S4096x32 .bf16) (p : Fin 512) (ρ' : Fin 32) :
    matmul dot_S512x4096_S4096x32_S512x32_1_0_0_1_n_n none A B (constant (F := Ideal) S512x32 .f32 0x00000000#32) (ix2 p ρ')
      = ∑ k : Fin 4096, A (ix2 p k) * B (ix2 k ρ') := by
  refine (Ideal.matmul_constant_zero_apply dot_S512x4096_S4096x32_S512x32_1_0_0_1_n_n none A B (ix2 p ρ')).trans ?_
  rw [← Equiv.sum_comp (ValueIdx.contrEquiv1 dot_S512x4096_S4096x32_S512x32_1_0_0_1_n_n 4096 rfl rfl).symm]
  refine Finset.sum_congr rfl fun k _ => ?_
  have hk := ValueIdx.contrEquiv1_symm_val dot_S512x4096_S4096x32_S512x32_1_0_0_1_n_n 4096 rfl rfl k
  have el : dot_S512x4096_S4096x32_S512x32_1_0_0_1_n_n.lhsIdx (ix2 p ρ') ((ValueIdx.contrEquiv1 dot_S512x4096_S4096x32_S512x32_1_0_0_1_n_n 4096 rfl rfl).symm k) = ix2 p k := funext fun a => Fin.ext (by
    match a with
    | ⟨0, _⟩ => exact lhs_proj_0 _ _
    | ⟨1, _⟩ => exact (lhs_proj_1 _ _).trans hk)
  have er : dot_S512x4096_S4096x32_S512x32_1_0_0_1_n_n.rhsIdx (ix2 p ρ') ((ValueIdx.contrEquiv1 dot_S512x4096_S4096x32_S512x32_1_0_0_1_n_n 4096 rfl rfl).symm k) = ix2 k ρ' := funext fun a => Fin.ext (by
    match a with
    | ⟨0, _⟩ => exact (rhs_proj_0 _ _).trans hk
    | ⟨1, _⟩ => exact rhs_proj_1 _ _)
  rw [el, er]

/-- The projection kernel's payload: the tile of `(x ⊙ smooth) · down`. -/
theorem pay0_apply (x0 : Vec Ideal S512x4096 .f32) (x1 : Vec Ideal S1x4096 .f32) (x2 : Vec Ideal S4096x32 .bf16) (p : Fin 512) (ρ' : Fin 32) :
    k0_pay1 (F := Ideal) x0 x1 x2 (ix2 p ρ') = ∑ k : Fin 4096, (x0 (ix2 p k) * x1 (ix2 0 k)) * x2 (ix2 k ρ') := by
  unfold k0_pay1
  refine (matmul_proj_apply _ _ p ρ').trans ?_
  refine Finset.sum_congr rfl fun k _ => ?_
  rw [shapeCast_self, shapeCast_self]
  show x0 (ix2 p k) * broadcastTo S512x4096 x1 broadcasts_S1x4096_S512x4096 (ix2 p k) * x2 (ix2 k ρ') = _
  rw [broadcastTo_1b_ab_apply]

/-- The cleared accumulator is zero everywhere. -/
theorem pay3_apply (p q : Fin 512) : k1_pay3 (F := Ideal) (ix2 p q) = 0 := by
  unfold k1_pay3
  rw [shapeCast_self]
  exact Ideal.ofBits_zero_f32

/-! ## The accumulation's dot: operand indices by axis -/

theorem lhs_acc_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_acc_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_acc_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_acc_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- A product into the zero accumulator, contracting the columns of both operands. -/
theorem matmul_acc_apply (A B : FVec Ideal S512x1024 .bf16) (p q : Fin 512) :
    matmul dot_S512x1024_S512x1024_S512x512_1_1_0_0_n_n none A B (constant (F := Ideal) S512x512 .f32 0x00000000#32) (ix2 p q)
      = ∑ kk : Fin 1024, A (ix2 p kk) * B (ix2 q kk) := by
  refine (Ideal.matmul_constant_zero_apply dot_S512x1024_S512x1024_S512x512_1_1_0_0_n_n none A B (ix2 p q)).trans ?_
  rw [← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun a => Fin.ext (by
    match a with
    | ⟨0, _⟩ => exact lhs_acc_0 _ _
    | ⟨1, _⟩ => exact (lhs_acc_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun a => Fin.ext (by
    match a with
    | ⟨0, _⟩ => exact rhs_acc_0 _ _
    | ⟨1, _⟩ => exact (rhs_acc_1 _ _).trans hk)
  rw [el, er]

/-! ## The per-group quantiser of a 512 × 1024 tile -/

/-- A group's largest absolute value: the lane maximum of the reshaped tile's absolute values, at row `p`, group `g`. -/
theorem groupMax_apply (Y : FVec Ideal S512x16x64 .f32) (p : Fin 512) (g : Fin 16) :
    multiReduction (F := Ideal) .maximumf [2] S512x16 (absf Y) 0xFF800000#32 reduces_S512x16x64_S512x16 (.inl rfl) rfl (ix2 p g)
      = absMax (fun l : Fin 64 => Y (ix3 p g l)) := by
  refine (Ideal.multiReduction_maximumf_single (absf Y) 0xFF800000#32 reduces_S512x16x64_S512x16 (.inl rfl) rfl (ix2 p g)).trans ?_
  have hl : ∀ l : Fin 64, reduces_S512x16x64_S512x16.lift (ix2 p g) l = ix3 p g l := fun l => funext fun c => Fin.ext (by
    match c with
    | ⟨0, _⟩ => rfl
    | ⟨1, _⟩ => rfl
    | ⟨2, _⟩ => rfl)
  have hf : (absf Y ∘ reduces_S512x16x64_S512x16.lift (ix2 p g)) = fun l : Fin 64 => max (Y (ix3 p g l)) (-(Y (ix3 p g l))) :=
    funext fun l => by
      show FloatOps.absf (Y (reduces_S512x16x64_S512x16.lift (ix2 p g) l)) = _
      rw [hl l]; rfl
  exact congrArg (fun f : Fin 64 → EReal => (Finset.univ : Finset (Fin 64)).fold max negInf f) hf

/-- The group's scale, kept on a unit lane axis: `max (absmax / 7) ε` of the group's 64 columns of the row. -/
theorem groupScale_apply (T : FVec Ideal S512x1024 .f32) (p : Fin 512) (g : Fin 16) (u : Fin 1) :
    maximumf (divf (shapeCast S512x16x1 (multiReduction (F := Ideal) .maximumf [2] S512x16 (absf (shapeCast S512x16x64 T shapeCasts_S512x1024_S512x16x64)) 0xFF800000#32 reduces_S512x16x64_S512x16 (.inl rfl) rfl) shapeCasts_S512x16_S512x16x1)
        (broadcast S512x16x1 (Scalar.ofBits (F := Ideal) .f32 0x40E00000#32)))
      (broadcast S512x16x1 (Scalar.ofBits (F := Ideal) .f32 0x322BCC77#32)) (ix3 p g u)
      = scale (fun l : Fin 64 => T (ix2 p ⟨g.val * 64 + l.val, by have := g.isLt; have := l.isLt; omega⟩)) := by
  have hc : shapeCast S512x16x1 (multiReduction (F := Ideal) .maximumf [2] S512x16 (absf (shapeCast S512x16x64 T shapeCasts_S512x1024_S512x16x64)) 0xFF800000#32 reduces_S512x16x64_S512x16 (.inl rfl) rfl) shapeCasts_S512x16_S512x16x1 (ix3 p g u)
      = absMax (fun l : Fin 64 => T (ix2 p ⟨g.val * 64 + l.val, by have := g.isLt; have := l.isLt; omega⟩)) := by
    refine (shapeCast_apply _ shapeCasts_S512x16_S512x16x1 (ix3 p g u) (ix2 p g) (by
      rw [Shape.rowMajor_val_two, Shape.rowMajor_val_three]
      have hu : u.val = 0 := by omega
      show p.val * 16 + g.val = (p.val * 16 + g.val) * 1 + u.val
      omega)).trans ?_
    refine (groupMax_apply _ p g).trans ?_
    refine congrArg absMax (funext fun l => ?_)
    exact shapeCast_apply T shapeCasts_S512x1024_S512x16x64 (ix3 p g l) (ix2 p ⟨g.val * 64 + l.val, by have := g.isLt; have := l.isLt; omega⟩) (by
      rw [Shape.rowMajor_val_two, Shape.rowMajor_val_three]
      show p.val * 1024 + (g.val * 64 + l.val) = (p.val * 16 + g.val) * 64 + l.val
      omega)
  show max (Ideal.div (shapeCast S512x16x1 (multiReduction (F := Ideal) .maximumf [2] S512x16 (absf (shapeCast S512x16x64 T shapeCasts_S512x1024_S512x16x64)) 0xFF800000#32 reduces_S512x16x64_S512x16 (.inl rfl) rfl) shapeCasts_S512x16_S512x16x1 (ix3 p g u)) seven) eps = _
  rw [hc]
  rfl

/-- The quantised tile at `(p, kk)`, given the scales `S` of its groups: the row's quantiser at column `kk`. The tile
    is reshaped to 512 × 16 × 64 (column `kk` is lane `kk % 64` of group `kk / 64`), divided by the scales spread over
    the lanes, rounded to even, clipped to `[-8, 7]`, rescaled, and reshaped back. -/
theorem quantCore_apply (T : FVec Ideal S512x1024 .f32) (S : FVec Ideal S512x16x1 .f32)
    (hS : ∀ (p : Fin 512) (g : Fin 16) (u : Fin 1),
      S (ix3 p g u) = scale (fun l : Fin 64 => T (ix2 p ⟨g.val * 64 + l.val, by have := g.isLt; have := l.isLt; omega⟩)))
    (p : Fin 512) (kk : Fin 1024) :
    shapeCast S512x1024
        (mulf
          (minimumf (broadcast S512x16x64 (Scalar.ofBits (F := Ideal) .f32 0x40E00000#32))
            (maximumf (broadcast S512x16x64 (Scalar.ofBits (F := Ideal) .f32 0xC1000000#32))
              (roundeven (divf (shapeCast S512x16x64 T shapeCasts_S512x1024_S512x16x64) (broadcastTo S512x16x64 S broadcasts_S512x16x1_S512x16x64)))))
          (broadcastTo S512x16x64 S broadcasts_S512x16x1_S512x16x64))
        shapeCasts_S512x16x64_S512x1024 (ix2 p kk)
      = tileQuant (fun kk => T (ix2 p kk)) kk := by
  have hg : kk.val / 64 < 16 := by have := kk.isLt; omega
  have hl : kk.val % 64 < 64 := Nat.mod_lt _ (by decide)
  refine (shapeCast_apply _ shapeCasts_S512x16x64_S512x1024 (ix2 p kk) (ix3 p (⟨kk.val / 64, hg⟩ : Fin 16) (⟨kk.val % 64, hl⟩ : Fin 64)) (by
    rw [Shape.rowMajor_val_three, Shape.rowMajor_val_two]
    show (p.val * 16 + kk.val / 64) * 64 + kk.val % 64 = p.val * 1024 + kk.val
    omega)).trans ?_
  have hb : broadcastTo S512x16x64 S broadcasts_S512x16x1_S512x16x64 (ix3 p (⟨kk.val / 64, hg⟩ : Fin 16) (⟨kk.val % 64, hl⟩ : Fin 64))
      = S (ix3 p (⟨kk.val / 64, hg⟩ : Fin 16) (0 : Fin 1)) :=
    broadcastTo_apply S broadcasts_S512x16x1_S512x16x64 _ _ (fun a => by
      match a with
      | ⟨0, _⟩ => show p.val = if (512 : Nat) = 1 then 0 else p.val; rw [if_neg (by decide)]
      | ⟨1, _⟩ => show kk.val / 64 = if (16 : Nat) = 1 then 0 else kk.val / 64; rw [if_neg (by decide)]
      | ⟨2, _⟩ => show 0 = if (1 : Nat) = 1 then 0 else kk.val % 64; rw [if_pos rfl])
  have hy : shapeCast S512x16x64 T shapeCasts_S512x1024_S512x16x64 (ix3 p (⟨kk.val / 64, hg⟩ : Fin 16) (⟨kk.val % 64, hl⟩ : Fin 64)) = T (ix2 p kk) :=
    shapeCast_apply T shapeCasts_S512x1024_S512x16x64 _ _ (by
      rw [Shape.rowMajor_val_two, Shape.rowMajor_val_three]
      show p.val * 1024 + kk.val = (p.val * 16 + kk.val / 64) * 64 + kk.val % 64
      omega)
  show min seven (max negEight (Ideal.liftRound Ideal.roundHalfEven
        (Ideal.div (shapeCast S512x16x64 T shapeCasts_S512x1024_S512x16x64 (ix3 p (⟨kk.val / 64, hg⟩ : Fin 16) (⟨kk.val % 64, hl⟩ : Fin 64)))
          (broadcastTo S512x16x64 S broadcasts_S512x16x1_S512x16x64 (ix3 p (⟨kk.val / 64, hg⟩ : Fin 16) (⟨kk.val % 64, hl⟩ : Fin 64))))))
      * broadcastTo S512x16x64 S broadcasts_S512x16x1_S512x16x64 (ix3 p (⟨kk.val / 64, hg⟩ : Fin 16) (⟨kk.val % 64, hl⟩ : Fin 64)) = _
  rw [hb, hy, hS]
  rfl

/-- The quantised activation tile at `(p, kk)`: row `p` of `x0 ⊙ x2`, quantised, at column `kk`. -/
theorem act_apply (x0 : Vec Ideal S512x1024 .f32) (x2 : Vec Ideal S1x1024 .f32) (p : Fin 512) (kk : Fin 1024) :
    k1_pay4 (F := Ideal) x0 x2 (ix2 p kk) = tileQuant (fun kk => x0 (ix2 p kk) * x2 (ix2 0 kk)) kk := by
  unfold k1_pay4
  refine (quantCore_apply (mulf x0 (broadcastTo S512x1024 (shapeCast S1x1024 x2 shapeCasts_S1x1024_S1x1024) broadcasts_S1x1024_S512x1024)) _
    (fun p g u => groupScale_apply _ p g u) p kk).trans ?_
  refine congrArg (fun a : Fin 1024 → EReal => tileQuant a kk) (funext fun c => ?_)
  show x0 (ix2 p c) * broadcastTo S512x1024 (shapeCast S1x1024 x2 shapeCasts_S1x1024_S1x1024) broadcasts_S1x1024_S512x1024 (ix2 p c) = _
  rw [shapeCast_self, broadcastTo_1b_ab_apply]

/-- The quantised weight tile at `(q, kk)`: row `q` of `x1`, quantised, at column `kk`. -/
theorem wgt_apply (x1 : Vec Ideal S512x1024 .f32) (q : Fin 512) (kk : Fin 1024) :
    shapeCast S512x1024
        (mulf
          (minimumf (broadcast S512x16x64 (Scalar.ofBits (F := Ideal) .f32 0x40E00000#32))
            (maximumf (broadcast S512x16x64 (Scalar.ofBits (F := Ideal) .f32 0xC1000000#32)) (k1_pay7 (F := Ideal) x1)))
          (broadcastTo S512x16x64 (k1_pay6 (F := Ideal) x1) broadcasts_S512x16x1_S512x16x64))
        shapeCasts_S512x16x64_S512x1024 (ix2 q kk)
      = tileQuant (fun kk => x1 (ix2 q kk)) kk := by
  unfold k1_pay7 k1_pay6 k1_pay5
  exact quantCore_apply x1 _ (fun p g u => groupScale_apply x1 p g u) q kk

/-- One reduction step: the accumulator plus the product of the quantised activation tile and the quantised weight tile. -/
theorem accStep_apply (x0 x1 : Vec Ideal S512x1024 .f32) (x2 : Vec Ideal S1x1024 .f32) (s : Vec Ideal S512x512 .f32) (p q : Fin 512) :
    k1_pay1 (F := Ideal) (k1_pay4 x0 x2) (k1_pay6 x1) (k1_pay7 x1) (Scalar.ofBits .f32 0xC1000000#32) (Scalar.ofBits .f32 0x40E00000#32) s (ix2 p q)
      = s (ix2 p q) + ∑ kk : Fin 1024, tileQuant (fun kk => x0 (ix2 p kk) * x2 (ix2 0 kk)) kk * tileQuant (fun kk => x1 (ix2 q kk)) kk := by
  unfold k1_pay1
  rw [shapeCast_self]
  show s (ix2 p q) + matmul dot_S512x1024_S512x1024_S512x512_1_1_0_0_n_n none
      (truncf .bf16 (k1_pay4 (F := Ideal) x0 x2) bitsLt_bf16_f32)
      (truncf .bf16 (shapeCast S512x1024
        (mulf
          (minimumf (broadcast S512x16x64 (Scalar.ofBits (F := Ideal) .f32 0x40E00000#32))
            (maximumf (broadcast S512x16x64 (Scalar.ofBits (F := Ideal) .f32 0xC1000000#32)) (k1_pay7 (F := Ideal) x1)))
          (broadcastTo S512x16x64 (k1_pay6 (F := Ideal) x1) broadcasts_S512x16x1_S512x16x64))
        shapeCasts_S512x16x64_S512x1024) bitsLt_bf16_f32)
      (constant (F := Ideal) S512x512 .f32 0x00000000#32) (ix2 p q) = _
  rw [matmul_acc_apply]
  refine congrArg (s (ix2 p q) + ·) (Finset.sum_congr rfl fun kk _ => ?_)
  exact congrArg₂ (· * ·) (act_apply x0 x2 p kk) (wgt_apply x1 q kk)

/-! ## The low-rank dot: operand indices by axis -/

theorem lhs_low_0 (i : S512x512.Idx) (q : dot_S512x32_S512x32_S512x512_1_1_0_0_n_n.contr.Idx) :
    (dot_S512x32_S512x32_S512x512_1_1_0_0_n_n.lhsIdx i q 0).val = (i 0).val := by
  unfold DotDims.lhsIdx
  rw [dif_neg (show ¬(0 : Fin S512x32.rank) ∈ dot_S512x32_S512x32_S512x512_1_1_0_0_n_n.lhsBatch by decide), dif_pos (show (0 : Fin S512x32.rank) ∈ dot_S512x32_S512x32_S512x512_1_1_0_0_n_n.lhsNonContracting by decide)]
  rfl
theorem lhs_low_1 (i : S512x512.Idx) (q : dot_S512x32_S512x32_S512x512_1_1_0_0_n_n.contr.Idx) :
    (dot_S512x32_S512x32_S512x512_1_1_0_0_n_n.lhsIdx i q 1).val = (q ⟨0, by decide⟩).val :=
  dot_S512x32_S512x32_S512x512_1_1_0_0_n_n.lhsIdx_val_of_single rfl i q
theorem rhs_low_0 (i : S512x512.Idx) (q : dot_S512x32_S512x32_S512x512_1_1_0_0_n_n.contr.Idx) :
    (dot_S512x32_S512x32_S512x512_1_1_0_0_n_n.rhsIdx i q 0).val = (i 1).val := by
  unfold DotDims.rhsIdx
  rw [dif_neg (show ¬(0 : Fin S512x32.rank) ∈ dot_S512x32_S512x32_S512x512_1_1_0_0_n_n.rhsBatch by decide), dif_pos (show (0 : Fin S512x32.rank) ∈ dot_S512x32_S512x32_S512x512_1_1_0_0_n_n.rhsNonContracting by decide)]
  rfl
theorem rhs_low_1 (i : S512x512.Idx) (q : dot_S512x32_S512x32_S512x512_1_1_0_0_n_n.contr.Idx) :
    (dot_S512x32_S512x32_S512x512_1_1_0_0_n_n.rhsIdx i q 1).val = (q ⟨0, by decide⟩).val :=
  dot_S512x32_S512x32_S512x512_1_1_0_0_n_n.rhsIdx_val_of_single rfl i q

/-- The low-rank product into the zero accumulator, contracting the 32 columns of both operands. -/
theorem matmul_low_apply (A B : FVec Ideal S512x32 .bf16) (p q : Fin 512) :
    matmul dot_S512x32_S512x32_S512x512_1_1_0_0_n_n none A B (constant (F := Ideal) S512x512 .f32 0x00000000#32) (ix2 p q)
      = ∑ ρ' : Fin 32, A (ix2 p ρ') * B (ix2 q ρ') := by
  refine (Ideal.matmul_constant_zero_apply dot_S512x32_S512x32_S512x512_1_1_0_0_n_n none A B (ix2 p q)).trans ?_
  rw [← Equiv.sum_comp (ValueIdx.contrEquiv1 dot_S512x32_S512x32_S512x512_1_1_0_0_n_n 32 rfl rfl).symm]
  refine Finset.sum_congr rfl fun k _ => ?_
  have hk := ValueIdx.contrEquiv1_symm_val dot_S512x32_S512x32_S512x512_1_1_0_0_n_n 32 rfl rfl k
  have el : dot_S512x32_S512x32_S512x512_1_1_0_0_n_n.lhsIdx (ix2 p q) ((ValueIdx.contrEquiv1 dot_S512x32_S512x32_S512x512_1_1_0_0_n_n 32 rfl rfl).symm k) = ix2 p k := funext fun a => Fin.ext (by
    match a with
    | ⟨0, _⟩ => exact lhs_low_0 _ _
    | ⟨1, _⟩ => exact (lhs_low_1 _ _).trans hk)
  have er : dot_S512x32_S512x32_S512x512_1_1_0_0_n_n.rhsIdx (ix2 p q) ((ValueIdx.contrEquiv1 dot_S512x32_S512x32_S512x512_1_1_0_0_n_n 32 rfl rfl).symm k) = ix2 q k := funext fun a => Fin.ext (by
    match a with
    | ⟨0, _⟩ => exact rhs_low_0 _ _
    | ⟨1, _⟩ => exact (rhs_low_1 _ _).trans hk)
  rw [el, er]

/-- The final payload: accumulator + low-rank term + bias. -/
theorem pay2_apply (x4 : Vec Ideal S512x32 .f32) (x5 : Vec Ideal S512x32 .bf16) (a : Vec Ideal S512x512 .f32) (x3 : Vec Ideal S1x512 .f32) (p q : Fin 512) :
    k1_pay2 (F := Ideal) x4 x5 a x3 (ix2 p q) = (a (ix2 p q) + ∑ ρ' : Fin 32, x4 (ix2 p ρ') * x5 (ix2 q ρ')) + x3 (ix2 0 q) := by
  unfold k1_pay2
  rw [shapeCast_self, shapeCast_self, shapeCast_self]
  show (a (ix2 p q) + matmul dot_S512x32_S512x32_S512x512_1_1_0_0_n_n none (truncf .bf16 x4 bitsLt_bf16_f32) x5 (constant (F := Ideal) S512x512 .f32 0x00000000#32) (ix2 p q))
      + broadcastTo S512x512 x3 broadcasts_S1x512_S512x512 (ix2 p q) = _
  rw [matmul_low_apply, broadcastTo_1b_ab_apply]
  rfl

end Cert.KernelIdeal.PayMath

end
-- ==== Proof.KI.Value0.lean ====
/-
  The projection array after the first region, over the extended reals: tile `i` of it is what point `i` wrote back,
  the tiles cover its 8192 rows, and a tile's entry is the sum over the 4096 columns of the smoothed activation times
  the down-projection; so the whole array is `(x ⊙ smooth) · down`, entry by entry, of the arrays the region found.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R0
import proofs.«140118_j56727928045732_1_alg».proof.Proof.KI.Pieces
import proofs.«140118_j56727928045732_1_alg».proof.Proof.KI.PayMath
import proofs.«140118_j56727928045732_1_alg».proof.Proof.KI.Arr
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayMath

section
variable (V : (c : Dev nD) → (b : Ref sig .tc) → Buf (Elt Ideal) ((c : Thread nD τ).loc b))

/-- Entry `(r, ρ')` of `(x ⊙ smooth) · down`: the sum over the 4096 columns. -/
def projAt (c : Dev nD) (r : Fin 8192) (ρ' : Fin 32) : EReal :=
  ∑ k : Fin 4096, (aX V c (ix2 r k) * aS V c (ix2 0 k)) * aDown V c (ix2 k ρ')

/-- The whole projection array as one function of the three arrays. -/
def G0 (c : Dev nD) : Vec Ideal S8192x32 .f32 := fun j => projAt V c (j 0) (j 1)

/-- The block indices over the 16 row tiles: the activation's and the projection's tile move with the point along the rows,
    every other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the activation's tile at point `t` is row `512 t + p` of the activation. -/
theorem xblk_apply (c : Dev nD) (t : Fin cfg0.N) (p : Fin 512) (k : Fin 4096) (r : Fin 8192) (hr : r.val = t.val * 512 + p.val) :
    (iblk0 (F := Ideal) V c 0 t : Vec Ideal S512x4096 .f32) (ix2 p k) = aX V c (ix2 r k) := by
  obtain ⟨e0, e1, -⟩ := idx0 t
  show V c main_arg0 (((cfg0.win 0).blk t).view.emb (ix2 p k)) = V c main_arg0 (ix2 r k)
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- The smoothing row's block is the whole row at every point. -/
theorem sblk_apply (c : Dev nD) (t : Fin cfg0.N) (k : Fin 4096) :
    (iblk0 (F := Ideal) V c 1 t : Vec Ideal S1x4096 .f32) (ix2 0 k) = aS V c (ix2 0 k) := by
  obtain ⟨-, -, e0, e1, -⟩ := idx0 t
  show V c main_v0 (((cfg0.win 1).blk t).view.emb (ix2 0 k)) = V c main_v0 (ix2 0 k)
  congr 1
  funext a
  apply Fin.ext
  match a with
  | ⟨0, _⟩ => show win0_1.index t (0 : Fin 2) * 1 + 1 * 0 = 0; rw [e0]
  | ⟨1, _⟩ => show win0_1.index t (1 : Fin 2) * 4096 + 1 * k.val = k.val; rw [e1]; omega

/-- The down-projection's block is the whole array at every point. -/
theorem dblk_apply (c : Dev nD) (t : Fin cfg0.N) (k : Fin 4096) (ρ' : Fin 32) :
    (iblk0 (F := Ideal) V c 2 t : Vec Ideal S4096x32 .bf16) (ix2 k ρ') = aDown V c (ix2 k ρ') := by
  obtain ⟨-, -, -, -, e0, e1, -⟩ := idx0 t
  show V c main_v2 (((cfg0.win 2).blk t).view.emb (ix2 k ρ')) = V c main_v2 (ix2 k ρ')
  congr 1
  funext a
  apply Fin.ext
  match a with
  | ⟨0, _⟩ => show win0_2.index t (0 : Fin 2) * 4096 + 1 * k.val = k.val; rw [e0]; omega
  | ⟨1, _⟩ => show win0_2.index t (1 : Fin 2) * 32 + 1 * ρ'.val = ρ'.val; rw [e1]; omega

/-- What point `t` writes back is tile `t` of the whole projection. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3, out0_3_eq]
  show (fun y : S512x32.Idx => k0_pay1 (F := Ideal) (iblk0 V c 0 t) (iblk0 V c 1 t) (iblk0 V c 2 t) y)
    = fun y : S512x32.Idx => G0 V c (((cfg0.win 3).blk t).view.emb y)
  funext y
  obtain ⟨p, q, rfl⟩ : ∃ (p : Fin 512) (q : Fin 32), y = ix2 p q := ⟨y 0, y 1, eq_ix2 y⟩
  obtain ⟨-, -, -, -, -, -, e0, e1⟩ := idx0 t
  refine (pay0_apply (iblk0 V c 0 t) (iblk0 V c 1 t) (iblk0 V c 2 t) p q).trans ?_
  have hr : ((((cfg0.win 3).blk t).view.emb (ix2 p q)) 0).val = t.val * 512 + p.val := by
    show win0_3.index t (0 : Fin 2) * 512 + 1 * p.val = _; rw [e0]; omega
  have hq : ((((cfg0.win 3).blk t).view.emb (ix2 p q)) 1).val = q.val := by
    show win0_3.index t (1 : Fin 2) * 32 + 1 * q.val = _; rw [e1]; omega
  show _ = projAt V c ((((cfg0.win 3).blk t).view.emb (ix2 p q)) 0) ((((cfg0.win 3).blk t).view.emb (ix2 p q)) 1)
  unfold projAt
  refine Finset.sum_congr rfl fun k _ => ?_
  rw [xblk_apply V c t p k _ hr, sblk_apply V c t k, dblk_apply V c t k q]
  congr 3
  exact Fin.ext hq.symm

/-- An index of the projection is in point `t`'s tile iff each coordinate is in the tile's range on its axis. -/
theorem mem_blk0 (t : Fin cfg0.N) (i : S8192x32.Idx) :
    i ∈ ((cfg0.win 3).blk t).view.set ↔ ∀ a : Fin 2, win0_3.index t a * S512x32.size a ≤ (i a).val ∧ (i a).val < win0_3.index t a * S512x32.size a + S512x32.size a := by
  show i ∈ ((View.whole main_v4).slice (win0_3.rect t)).set ↔ _
  rw [View.set_slice_whole, Rect.mem_set_unit]
  exact Iff.rfl

/-- The 16 tiles cover the 8192 rows: row `r` is in the tile of point `r / 512`, which is written back. -/
theorem cover0 (i : S8192x32.Idx) : ∃ t : Fin cfg0.N, (cfg0.win 3).flush t = true ∧ i ∈ ((cfg0.win 3).blk t).view.set := by
  have hi0 : (i 0).val < 8192 := (i 0).isLt
  have hi1 : (i 1).val < 32 := (i 1).isLt
  have hN : grid0.N = 16 := N_0
  have hlt : (i 0).val / 512 < grid0.N := by rw [hN]; omega
  refine ⟨⟨(i 0).val / 512, hlt⟩, flush0_3 _, ?_⟩
  rw [mem_blk0]
  obtain ⟨-, -, -, -, -, -, e0, e1⟩ := idx0 ⟨(i 0).val / 512, hlt⟩
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hlt⟩ (1 : Fin 2) * 32 ≤ (i 1).val ∧ (i 1).val < win0_3.index ⟨(i 0).val / 512, hlt⟩ (1 : Fin 2) * 32 + 32
    rw [e1]; omega

/-- So the projection array ends holding the whole projection. -/
theorem final0 (c : Dev nD) : (dat0 (F := Ideal) V c).arrAt 3 cfg0.N = G0 V c :=
  (dat0 (F := Ideal) V c).arrAt_eq_of_cover 3 (G0 V c) (fun t _ => flushed0_eq V c t) (fun i => cover0 i)

/-- The projection array the first region leaves. -/
theorem proj_value (c : Dev nD) (r : Fin 8192) (ρ' : Fin 32) :
    ((dat0 (F := Ideal) V c).arrAt 3 cfg0.N : S8192x32.Idx → EReal) (ix2 r ρ')
      = ∑ k : Fin 4096, (aX V c (ix2 r k) * aS V c (ix2 0 k)) * aDown V c (ix2 k ρ') := by
  rw [final0 V c]
  rfl

end

end Cert.KernelIdeal.Hand.Proj

end
-- ==== Proof.KI.SumSplit.lean ====
/-
  Two arithmetic facts behind the tiling of the reduction axis. A group of 64 consecutive columns lies inside one
  1024-wide tile, so quantising a tile's row is quantising the whole row, read at the tile's columns; and a sum over
  4096 columns is the four tiles' sums added one after the other from zero.
-/
import proofs.«140118_j56727928045732_1_alg».proof.Proof.KI.PayMath
import proofs.«140118_j56727928045732_1_alg».proof.Proof.Spec
import Mathlib.Algebra.BigOperators.Fin

noncomputable section

namespace Cert.KernelIdeal.SumSplit

open Cert.Spec Cert.KernelIdeal.PayMath

/-- Row `a` quantised inside tile `k` at the tile's column `kk` is the row quantised at column `1024 k + kk`. -/
theorem tileQuant_eq_quant (a : Fin 4096 → EReal) (k : Fin 4) (kk : Fin 1024) :
    tileQuant (fun kk' : Fin 1024 => a ⟨k.val * 1024 + kk'.val, by have := k.isLt; have := kk'.isLt; omega⟩) kk
      = quant a ⟨k.val * 1024 + kk.val, by have := k.isLt; have := kk.isLt; omega⟩ := by
  unfold tileQuant quant group
  have hG : (fun l : Fin 64 =>
        (fun kk' : Fin 1024 => a ⟨k.val * 1024 + kk'.val, by have := k.isLt; have := kk'.isLt; omega⟩)
          ⟨(kk.val / 64) * 64 + l.val, by have := kk.isLt; have := l.isLt; omega⟩)
      = (fun l : Fin 64 =>
        a ⟨(⟨(⟨k.val * 1024 + kk.val, by have := k.isLt; have := kk.isLt; omega⟩ : Fin 4096).val / 64,
              by have := k.isLt; have := kk.isLt; simp only []; omega⟩ : Fin 64).val * 64 + l.val,
            by have := k.isLt; have := kk.isLt; have := l.isLt; simp only []; omega⟩) := by
    funext l
    refine congrArg a (Fin.ext ?_)
    have := k.isLt; have := kk.isLt; have := l.isLt
    simp only []
    omega
  exact congrArg (fun G => quantAt (scale G) (a ⟨k.val * 1024 + kk.val, by have := k.isLt; have := kk.isLt; omega⟩)) hG

/-- A sum over `m + n` indices is the sum over the first `m` of them plus the sum over the last `n`. -/
theorem sum_fin_add (m n N : ℕ) (h : m + n = N) (f : Fin N → EReal) :
    ∑ k : Fin N, f k
      = ∑ i : Fin m, f ⟨i.val, by have := i.isLt; omega⟩ + ∑ j : Fin n, f ⟨m + j.val, by have := j.isLt; omega⟩ := by
  subst h
  rw [Fin.sum_univ_add]
  rfl

/-- The sum over 4096 columns, tile by tile, in the order the accumulator adds them. -/
theorem sum_split4 (f : Fin 4096 → EReal) :
    ∑ k : Fin 4096, f k
      = (((0 + ∑ kk : Fin 1024, f ⟨0 * 1024 + kk.val, by have := kk.isLt; omega⟩) + ∑ kk : Fin 1024, f ⟨1 * 1024 + kk.val, by have := kk.isLt; omega⟩)
          + ∑ kk : Fin 1024, f ⟨2 * 1024 + kk.val, by have := kk.isLt; omega⟩) + ∑ kk : Fin 1024, f ⟨3 * 1024 + kk.val, by have := kk.isLt; omega⟩ := by
  rw [sum_fin_add 3072 1024 4096 rfl f, sum_fin_add 2048 1024 3072 rfl, sum_fin_add 1024 1024 2048 rfl, zero_add]
  refine congrArg₂ (· + ·) (congrArg₂ (· + ·) (congrArg₂ (· + ·) ?_ ?_) ?_) ?_ <;>
    exact Finset.sum_congr rfl fun kk _ => congrArg f (Fin.ext (by simp))

end Cert.KernelIdeal.SumSplit

end
-- ==== Proof.KI.Value1.lean ====
/-
  The result array after the second region, over the extended reals. For an output tile `(i, j)` the four reduction
  steps `k = 0 … 3` leave in the accumulator `0 + d₀ + d₁ + d₂ + d₃`, where `d_k` at `(p, q)` is the product of row
  `p` of the quantised `(i, k)` activation tile with row `q` of the quantised `(j, k)` weight tile; the groups of 64
  never straddle a tile, so these four sums are the one sum over the 4096 columns of the specification's quantised
  rows. The last step writes accumulator + low-rank term + bias to the tile, the tiles `(i, j)` cover the array, and
  only last steps write back.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.R1
import proofs.«140118_j56727928045732_1_alg».proof.Proof.KI.Arr
import proofs.«140118_j56727928045732_1_alg».proof.Proof.KI.SumSplit
import proofs.«140118_j56727928045732_1_alg».proof.Proof.KI.Pieces
import proofs.«140118_j56727928045732_1_alg».proof.Proof.KI.PayMath
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayMath

section
variable (V : (c : Dev nD) → (b : Ref sig .tc) → Buf (Elt Ideal) ((c : Thread nD τ).loc b))

/-! ## The input blocks, by their literal types -/

/-- The six input blocks at a point. -/
abbrev xblk (c : Dev nD) (t : Fin cfg1.N) : Vec Ideal S512x1024 .f32 := iblk1 V c 0 t
abbrev wblk (c : Dev nD) (t : Fin cfg1.N) : Vec Ideal S512x1024 .f32 := iblk1 V c 1 t
abbrev sblk (c : Dev nD) (t : Fin cfg1.N) : Vec Ideal S1x1024 .f32 := iblk1 V c 2 t
abbrev bblk (c : Dev nD) (t : Fin cfg1.N) : Vec Ideal S1x512 .f32 := iblk1 V c 3 t
abbrev pblk (c : Dev nD) (t : Fin cfg1.N) : Vec Ideal S512x32 .f32 := iblk1 V c 4 t
abbrev ublk (c : Dev nD) (t : Fin cfg1.N) : Vec Ideal S512x32 .bf16 := iblk1 V c 5 t

/-! ## The index maps over the grid: point `t` is `(i, j, k) = (t / 32, t / 4 % 8, t % 4)` -/

theorem idx_x : ∀ t : Fin cfg1.N, win1_0.index t (0 : Fin 2) = t.val / 32 ∧ win1_0.index t (1 : Fin 2) = t.val % 4 :=
  (by decide +kernel : ∀ t : Fin grid1.N, _)
theorem idx_w : ∀ t : Fin cfg1.N, win1_1.index t (0 : Fin 2) = t.val / 4 % 8 ∧ win1_1.index t (1 : Fin 2) = t.val % 4 :=
  (by decide +kernel : ∀ t : Fin grid1.N, _)
theorem idx_s : ∀ t : Fin cfg1.N, win1_2.index t (0 : Fin 2) = 0 ∧ win1_2.index t (1 : Fin 2) = t.val % 4 :=
  (by decide +kernel : ∀ t : Fin grid1.N, _)
theorem idx_b : ∀ t : Fin cfg1.N, win1_3.index t (0 : Fin 2) = 0 ∧ win1_3.index t (1 : Fin 2) = t.val / 4 % 8 :=
  (by decide +kernel : ∀ t : Fin grid1.N, _)
theorem idx_p : ∀ t : Fin cfg1.N, win1_4.index t (0 : Fin 2) = t.val / 32 ∧ win1_4.index t (1 : Fin 2) = 0 :=
  (by decide +kernel : ∀ t : Fin grid1.N, _)
theorem idx_u : ∀ t : Fin cfg1.N, win1_5.index t (0 : Fin 2) = t.val / 4 % 8 ∧ win1_5.index t (1 : Fin 2) = 0 :=
  (by decide +kernel : ∀ t : Fin grid1.N, _)
theorem idx_o : ∀ t : Fin cfg1.N, win1_6.index t (0 : Fin 2) = t.val / 32 ∧ win1_6.index t (1 : Fin 2) = t.val / 4 % 8 :=
  (by decide +kernel : ∀ t : Fin grid1.N, _)

/-! ## Block reads: an entry of a block is the array's entry at block index × block size + the entry's coordinate -/

theorem xblk_apply (c : Dev nD) (t : Fin cfg1.N) (p : Fin 512) (kk : Fin 1024) (r : Fin 8192) (k : Fin 4096)
    (hr : r.val = t.val / 32 * 512 + p.val) (hk : k.val = t.val % 4 * 1024 + kk.val) :
    xblk V c t (ix2 p kk) = aX V c (ix2 r k) := by
  show V c main_arg0 (((cfg1.win 0).blk t).view.emb (ix2 p kk)) = V c main_arg0 (ix2 r k)
  congr 1
  funext a
  apply Fin.ext
  match a with
  | ⟨0, _⟩ => show win1_0.index t (0 : Fin 2) * 512 + 1 * p.val = r.val; rw [(idx_x t).1]; omega
  | ⟨1, _⟩ => show win1_0.index t (1 : Fin 2) * 1024 + 1 * kk.val = k.val; rw [(idx_x t).2]; omega

theorem wblk_apply (c : Dev nD) (t : Fin cfg1.N) (q : Fin 512) (kk : Fin 1024) (n : Fin 4096) (k : Fin 4096)
    (hn : n.val = t.val / 4 % 8 * 512 + q.val) (hk : k.val = t.val % 4 * 1024 + kk.val) :
    wblk V c t (ix2 q kk) = aW V c (ix2 n k) := by
  show V c main_arg1 (((cfg1.win 1).blk t).view.emb (ix2 q kk)) = V c main_arg1 (ix2 n k)
  congr 1
  funext a
  apply Fin.ext
  match a with
  | ⟨0, _⟩ => show win1_1.index t (0 : Fin 2) * 512 + 1 * q.val = n.val; rw [(idx_w t).1]; omega
  | ⟨1, _⟩ => show win1_1.index t (1 : Fin 2) * 1024 + 1 * kk.val = k.val; rw [(idx_w t).2]; omega

theorem sblk_apply (c : Dev nD) (t : Fin cfg1.N) (kk : Fin 1024) (k : Fin 4096)
    (hk : k.val = t.val % 4 * 1024 + kk.val) :
    sblk V c t (ix2 0 kk) = aS V c (ix2 0 k) := by
  show V c main_v0 (((cfg1.win 2).blk t).view.emb (ix2 0 kk)) = V c main_v0 (ix2 0 k)
  congr 1
  funext a
  apply Fin.ext
  match a with
  | ⟨0, _⟩ => show win1_2.index t (0 : Fin 2) * 1 + 1 * 0 = 0; rw [(idx_s t).1]
  | ⟨1, _⟩ => show win1_2.index t (1 : Fin 2) * 1024 + 1 * kk.val = k.val; rw [(idx_s t).2]; omega

theorem bblk_apply (c : Dev nD) (t : Fin cfg1.N) (q : Fin 512) (n : Fin 4096)
    (hn : n.val = t.val / 4 % 8 * 512 + q.val) :
    bblk V c t (ix2 0 q) = aB V c (ix2 0 n) := by
  show V c main_v1 (((cfg1.win 3).blk t).view.emb (ix2 0 q)) = V c main_v1 (ix2 0 n)
  congr 1
  funext a
  apply Fin.ext
  match a with
  | ⟨0, _⟩ => show win1_3.index t (0 : Fin 2) * 1 + 1 * 0 = 0; rw [(idx_b t).1]
  | ⟨1, _⟩ => show win1_3.index t (1 : Fin 2) * 512 + 1 * q.val = n.val; rw [(idx_b t).2]; omega

theorem pblk_apply (c : Dev nD) (t : Fin cfg1.N) (p : Fin 512) (ρ' : Fin 32) (r : Fin 8192)
    (hr : r.val = t.val / 32 * 512 + p.val) :
    pblk V c t (ix2 p ρ') = aProj V c (ix2 r ρ') := by
  show V c main_v4 (((cfg1.win 4).blk t).view.emb (ix2 p ρ')) = V c main_v4 (ix2 r ρ')
  congr 1
  funext a
  apply Fin.ext
  match a with
  | ⟨0, _⟩ => show win1_4.index t (0 : Fin 2) * 512 + 1 * p.val = r.val; rw [(idx_p t).1]; omega
  | ⟨1, _⟩ => show win1_4.index t (1 : Fin 2) * 32 + 1 * ρ'.val = ρ'.val; rw [(idx_p t).2]; omega

theorem ublk_apply (c : Dev nD) (t : Fin cfg1.N) (q : Fin 512) (ρ' : Fin 32) (n : Fin 4096)
    (hn : n.val = t.val / 4 % 8 * 512 + q.val) :
    ublk V c t (ix2 q ρ') = aUp V c (ix2 n ρ') := by
  show V c main_v3 (((cfg1.win 5).blk t).view.emb (ix2 q ρ')) = V c main_v3 (ix2 n ρ')
  congr 1
  funext a
  apply Fin.ext
  match a with
  | ⟨0, _⟩ => show win1_5.index t (0 : Fin 2) * 512 + 1 * q.val = n.val; rw [(idx_u t).1]; omega
  | ⟨1, _⟩ => show win1_5.index t (1 : Fin 2) * 32 + 1 * ρ'.val = ρ'.val; rw [(idx_u t).2]; omega

/-! ## One reduction step's product, and what the three cases leave at an entry -/

/-- Row `p` of the quantised activation tile times row `q` of the quantised weight tile, at point `t`. -/
def tileDot (c : Dev nD) (t : Fin cfg1.N) (p q : Fin 512) : EReal :=
  ∑ kk : Fin 1024, tileQuant (fun kk => xblk V c t (ix2 p kk) * sblk V c t (ix2 0 kk)) kk
      * tileQuant (fun kk => wblk V c t (ix2 q kk)) kk

/-- The accumulator after a first reduction step: this step's product added to zero. -/
theorem acc_first (c : Dev nD) (n : ℕ) (hn : n < cfg1.N) (h0 : n % 4 = 0) (p q : Fin 512) :
    (outsAt1 V c n hn).2 (ix2 p q) = 0 + tileDot V c ⟨n, hn⟩ p q := by
  have h1 : ¬n % 4 = 3 := by omega
  rw [outsAt1_A V c ⟨n, hn⟩ h0 h1]
  dsimp only
  refine (congrFun (sout1_A_eq (F := Ideal) c (grid1.coords ⟨n, hn⟩) (ms1_0 ⟨n, hn⟩) (hs1_0 ⟨n, hn⟩) (ms1_1 ⟨n, hn⟩) (hs1_1 ⟨n, hn⟩)
    (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩)
    (ms1_6 ⟨n, hn⟩) (hs1_6 ⟨n, hn⟩) scM1 (Memref.isWhole_whole _) ((hcond1_0 ⟨n, hn⟩).mpr h0) (fun h => h1 ((hcond1_1 ⟨n, hn⟩).mp h))
    (xblk V c ⟨n, hn⟩) (wblk V c ⟨n, hn⟩) (sblk V c ⟨n, hn⟩) (bblk V c ⟨n, hn⟩) (pblk V c ⟨n, hn⟩) (ublk V c ⟨n, hn⟩)) (ix2 p q)).trans ?_
  refine (accStep_apply (xblk V c ⟨n, hn⟩) (wblk V c ⟨n, hn⟩) (sblk V c ⟨n, hn⟩) (k1_pay3 (F := Ideal)) p q).trans ?_
  rw [pay3_apply p q]
  rfl

/-- The accumulator after a middle reduction step: this step's product added to what the step before left. -/
theorem acc_mid (c : Dev nD) (n : ℕ) (hn : n < cfg1.N) (h0 : ¬n % 4 = 0) (h1 : ¬n % 4 = 3) (m : ℕ) (hm : m < cfg1.N) (hmn : n - 1 = m)
    (p q : Fin 512) :
    (outsAt1 V c n hn).2 (ix2 p q) = (outsAt1 V c m hm).2 (ix2 p q) + tileDot V c ⟨n, hn⟩ p q := by
  subst hmn
  rw [outsAt1_B V c ⟨n, hn⟩ h0 h1]
  dsimp only
  refine (congrFun (sout1_B_eq (F := Ideal) c (grid1.coords ⟨n, hn⟩) (ms1_0 ⟨n, hn⟩) (hs1_0 ⟨n, hn⟩) (ms1_1 ⟨n, hn⟩) (hs1_1 ⟨n, hn⟩)
    (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩)
    (ms1_6 ⟨n, hn⟩) (hs1_6 ⟨n, hn⟩) scM1 (Memref.isWhole_whole _) (fun h => h0 ((hcond1_0 ⟨n, hn⟩).mp h)) (fun h => h1 ((hcond1_1 ⟨n, hn⟩).mp h))
    (xblk V c ⟨n, hn⟩) (wblk V c ⟨n, hn⟩) (sblk V c ⟨n, hn⟩) (bblk V c ⟨n, hn⟩) (pblk V c ⟨n, hn⟩) (ublk V c ⟨n, hn⟩)
    (outsAt1 V c (n - 1) hm).2) (ix2 p q)).trans ?_
  exact accStep_apply (xblk V c ⟨n, hn⟩) (wblk V c ⟨n, hn⟩) (sblk V c ⟨n, hn⟩) (outsAt1 V c (n - 1) hm).2 p q

/-- The output tile after a last reduction step: what the step before left, this step's product, the low-rank term and the bias. -/
theorem out_last (c : Dev nD) (n : ℕ) (hn : n < cfg1.N) (h1 : n % 4 = 3) (m : ℕ) (hm : m < cfg1.N) (hmn : n - 1 = m)
    (p q : Fin 512) :
    (outsAt1 V c n hn).1 (ix2 p q)
      = (((outsAt1 V c m hm).2 (ix2 p q) + tileDot V c ⟨n, hn⟩ p q)
          + ∑ ρ' : Fin 32, pblk V c ⟨n, hn⟩ (ix2 p ρ') * ublk V c ⟨n, hn⟩ (ix2 q ρ')) + bblk V c ⟨n, hn⟩ (ix2 0 q) := by
  subst hmn
  have h0 : ¬n % 4 = 0 := by omega
  rw [outsAt1_C V c ⟨n, hn⟩ h0 h1]
  dsimp only
  refine (congrFun (out1_C_eq (F := Ideal) c (grid1.coords ⟨n, hn⟩) (ms1_0 ⟨n, hn⟩) (hs1_0 ⟨n, hn⟩) (ms1_1 ⟨n, hn⟩) (hs1_1 ⟨n, hn⟩)
    (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩)
    (ms1_6 ⟨n, hn⟩) (hs1_6 ⟨n, hn⟩) scM1 (Memref.isWhole_whole _) (fun h => h0 ((hcond1_0 ⟨n, hn⟩).mp h)) ((hcond1_1 ⟨n, hn⟩).mpr h1)
    (xblk V c ⟨n, hn⟩) (wblk V c ⟨n, hn⟩) (sblk V c ⟨n, hn⟩) (bblk V c ⟨n, hn⟩) (pblk V c ⟨n, hn⟩) (ublk V c ⟨n, hn⟩)
    (outsAt1 V c (n - 1) hm).2) (ix2 p q)).trans ?_
  refine (pay2_apply (pblk V c ⟨n, hn⟩) (ublk V c ⟨n, hn⟩)
    (k1_pay1 (F := Ideal) (k1_pay4 (xblk V c ⟨n, hn⟩) (sblk V c ⟨n, hn⟩)) (k1_pay6 (wblk V c ⟨n, hn⟩)) (k1_pay7 (wblk V c ⟨n, hn⟩))
      (Scalar.ofBits .f32 0xC1000000#32) (Scalar.ofBits .f32 0x40E00000#32) (outsAt1 V c (n - 1) hm).2)
    (bblk V c ⟨n, hn⟩) p q).trans ?_
  rw [accStep_apply (xblk V c ⟨n, hn⟩) (wblk V c ⟨n, hn⟩) (sblk V c ⟨n, hn⟩) (outsAt1 V c (n - 1) hm).2 p q]
  rfl

/-! ## The four tiles' products are the four quarters of the row product -/

/-- The quantised smoothed activation row `r` times the quantised weight row `n`, column by column. -/
def rowDot (c : Dev nD) (r : Fin 8192) (n : Fin 4096) : Fin 4096 → EReal :=
  fun k => Cert.Spec.quant (fun k => aX V c (ix2 r k) * aS V c (ix2 0 k)) k * Cert.Spec.quant (fun k => aW V c (ix2 n k)) k

/-- At a point whose reduction coordinate is `k`, the tiles' product at `(p, q)` is the row product's quarter `k`:
    a tile's row is the array's row at the tile's columns, and quantising it is quantising the whole row there. -/
theorem tileDot_eq (c : Dev nD) (t : Fin cfg1.N) (k : ℕ) (hk4 : k < 4) (hk : t.val % 4 = k) (p q : Fin 512)
    (r : Fin 8192) (n : Fin 4096) (hr : r.val = t.val / 32 * 512 + p.val) (hn : n.val = t.val / 4 % 8 * 512 + q.val) :
    tileDot V c t p q = ∑ kk : Fin 1024, rowDot V c r n ⟨k * 1024 + kk.val, by have := kk.isLt; omega⟩ := by
  unfold tileDot
  refine Finset.sum_congr rfl (fun kk _ => ?_)
  have hx : (fun kk' : Fin 1024 => xblk V c t (ix2 p kk') * sblk V c t (ix2 0 kk'))
      = fun kk' : Fin 1024 => (fun k : Fin 4096 => aX V c (ix2 r k) * aS V c (ix2 0 k))
          ⟨(⟨k, hk4⟩ : Fin 4).val * 1024 + kk'.val, by have := kk'.isLt; show k * 1024 + kk'.val < 4096; omega⟩ := by
    funext kk'
    exact congrArg₂ (· * ·)
      (xblk_apply V c t p kk' r ⟨k * 1024 + kk'.val, by have := kk'.isLt; omega⟩ hr (by show k * 1024 + kk'.val = t.val % 4 * 1024 + kk'.val; rw [hk]))
      (sblk_apply V c t kk' ⟨k * 1024 + kk'.val, by have := kk'.isLt; omega⟩ (by show k * 1024 + kk'.val = t.val % 4 * 1024 + kk'.val; rw [hk]))
  have hw : (fun kk' : Fin 1024 => wblk V c t (ix2 q kk'))
      = fun kk' : Fin 1024 => (fun k : Fin 4096 => aW V c (ix2 n k))
          ⟨(⟨k, hk4⟩ : Fin 4).val * 1024 + kk'.val, by have := kk'.isLt; show k * 1024 + kk'.val < 4096; omega⟩ := by
    funext kk'
    exact wblk_apply V c t q kk' n ⟨k * 1024 + kk'.val, by have := kk'.isLt; omega⟩ hn (by show k * 1024 + kk'.val = t.val % 4 * 1024 + kk'.val; rw [hk])
  have e1 := (congrArg (fun f => tileQuant f kk) hx).trans
    (Cert.KernelIdeal.SumSplit.tileQuant_eq_quant (fun k : Fin 4096 => aX V c (ix2 r k) * aS V c (ix2 0 k)) ⟨k, hk4⟩ kk)
  have e2 := (congrArg (fun f => tileQuant f kk) hw).trans
    (Cert.KernelIdeal.SumSplit.tileQuant_eq_quant (fun k : Fin 4096 => aW V c (ix2 n k)) ⟨k, hk4⟩ kk)
  exact congrArg₂ (· * ·) e1 e2

/-! ## The output tile at a last step, entry by entry -/

/-- The specification's result at row `r`, column `n`. -/
def Gfun (c : Dev nD) (r : Fin 8192) (n : Fin 4096) : EReal :=
  ((∑ k : Fin 4096, rowDot V c r n k) + ∑ ρ' : Fin 32, aProj V c (ix2 r ρ') * aUp V c (ix2 n ρ')) + aB V c (ix2 0 n)

/-- The same as contents of the result array. -/
abbrev G1 (c : Dev nD) : S8192x4096.Idx → EReal := fun i => Gfun V c (i 0) (i 1)

/-- At a last step `t` the output tile's entry `(p, q)` is the result at row `512 i + p`, column `512 j + q`: the three
    steps before and this one leave the four quarters added from zero, which is the whole row product. -/
theorem tile_entry (c : Dev nD) (t : Fin cfg1.N) (h3 : t.val % 4 = 3) (p q : Fin 512) (r : Fin 8192) (n : Fin 4096)
    (hr : r.val = t.val / 32 * 512 + p.val) (hn : n.val = t.val / 4 % 8 * 512 + q.val) :
    (outsAt1 V c t.val t.isLt).1 (ix2 p q) = Gfun V c r n := by
  have l1 : t.val - 1 < cfg1.N := lt_of_le_of_lt (Nat.sub_le _ _) t.isLt
  have l2 : t.val - 2 < cfg1.N := lt_of_le_of_lt (Nat.sub_le _ _) t.isLt
  have l3 : t.val - 3 < cfg1.N := lt_of_le_of_lt (Nat.sub_le _ _) t.isLt
  have d3 := tileDot_eq V c ⟨t.val - 3, l3⟩ 0 (by omega) (by show (t.val - 3) % 4 = 0; omega) p q r n
    (by show r.val = (t.val - 3) / 32 * 512 + p.val; omega) (by show n.val = (t.val - 3) / 4 % 8 * 512 + q.val; omega)
  have d2 := tileDot_eq V c ⟨t.val - 2, l2⟩ 1 (by omega) (by show (t.val - 2) % 4 = 1; omega) p q r n
    (by show r.val = (t.val - 2) / 32 * 512 + p.val; omega) (by show n.val = (t.val - 2) / 4 % 8 * 512 + q.val; omega)
  have d1 := tileDot_eq V c ⟨t.val - 1, l1⟩ 2 (by omega) (by show (t.val - 1) % 4 = 2; omega) p q r n
    (by show r.val = (t.val - 1) / 32 * 512 + p.val; omega) (by show n.val = (t.val - 1) / 4 % 8 * 512 + q.val; omega)
  have d0 := tileDot_eq V c ⟨t.val, t.isLt⟩ 3 (by omega) h3 p q r n hr hn
  have hsum : (((0 + tileDot V c ⟨t.val - 3, l3⟩ p q) + tileDot V c ⟨t.val - 2, l2⟩ p q) + tileDot V c ⟨t.val - 1, l1⟩ p q)
      + tileDot V c ⟨t.val, t.isLt⟩ p q = ∑ k : Fin 4096, rowDot V c r n k := by
    rw [d3, d2, d1, d0]
    exact (Cert.KernelIdeal.SumSplit.sum_split4 (rowDot V c r n)).symm
  have hlow : ∑ ρ' : Fin 32, pblk V c ⟨t.val, t.isLt⟩ (ix2 p ρ') * ublk V c ⟨t.val, t.isLt⟩ (ix2 q ρ')
      = ∑ ρ' : Fin 32, aProj V c (ix2 r ρ') * aUp V c (ix2 n ρ') :=
    Finset.sum_congr rfl (fun ρ' _ => congrArg₂ (· * ·) (pblk_apply V c ⟨t.val, t.isLt⟩ p ρ' r hr) (ublk_apply V c ⟨t.val, t.isLt⟩ q ρ' n hn))
  have hbias : bblk V c ⟨t.val, t.isLt⟩ (ix2 0 q) = aB V c (ix2 0 n) := bblk_apply V c ⟨t.val, t.isLt⟩ q n hn
  rw [out_last V c t.val t.isLt h3 (t.val - 1) l1 rfl p q,
    acc_mid V c (t.val - 1) l1 (by omega) (by omega) (t.val - 2) l2 (by omega) p q,
    acc_mid V c (t.val - 2) l2 (by omega) (by omega) (t.val - 3) l3 (by omega) p q,
    acc_first V c (t.val - 3) l3 (by omega) p q]
  unfold Gfun
  rw [hsum, hlow, hbias]

/-- The same at any index of the tile. -/
theorem tile_at (c : Dev nD) (t : Fin cfg1.N) (h3 : t.val % 4 = 3) (y : S512x512.Idx) (i : S8192x4096.Idx)
    (h0 : (i 0).val = t.val / 32 * 512 + (y 0).val) (h1 : (i 1).val = t.val / 4 % 8 * 512 + (y 1).val) :
    (outsAt1 V c t.val t.isLt).1 y = G1 V c i := by
  obtain ⟨p, q, rfl⟩ : ∃ (p q : Fin 512), y = ix2 p q := ⟨y 0, y 1, eq_ix2 y⟩
  exact tile_entry V c t h3 p q (i 0) (i 1) h0 h1

/-! ## From the tiles to the array -/

/-- What a last step writes back is its block of the result. -/
theorem flushed_eq (c : Dev nD) (t : Fin cfg1.N) (h3 : t.val % 4 = 3) :
    (dat1 (F := Ideal) V c).flushed 6 t = ((cfg1.win 6).blk t).view.read (Elt Ideal) (G1 V c) := by
  funext j
  show (cfg1.win 6).cut (grid1.coords t) ((dat1 (F := Ideal) V c).after 6 t) j = _
  rw [after1_6]
  show (outsAt1 V c t.val t.isLt).1 ((cfg1.win 6).xinj (grid1.coords t) j) = G1 V c (((cfg1.win 6).blk t).view.emb j)
  refine tile_at V c t h3 ((cfg1.win 6).xinj (grid1.coords t) j) (((cfg1.win 6).blk t).view.emb j) ?_ ?_
  · show win1_6.index t (0 : Fin 2) * 512 + 1 * (j 0).val = t.val / 32 * 512 + (j 0).val
    rw [(idx_o t).1]; omega
  · show win1_6.index t (1 : Fin 2) * 512 + 1 * (j 1).val = t.val / 4 % 8 * 512 + (j 1).val
    rw [(idx_o t).2]; omega

/-- An index of the array is in point `t`'s block iff each coordinate is in the block's range on its axis. -/
theorem mem_blk (t : Fin cfg1.N) (i : S8192x4096.Idx) :
    i ∈ ((cfg1.win 6).blk t).view.set ↔ ∀ a : Fin 2, win1_6.index t a * S512x512.size a ≤ (i a).val
      ∧ (i a).val < win1_6.index t a * S512x512.size a + S512x512.size a := by
  show i ∈ ((View.whole main_v5).slice (win1_6.rect t)).set ↔ _
  rw [View.set_slice_whole, Rect.mem_set_unit]
  exact Iff.rfl

/-- Every index `(r, n)` lies in the block of the last step of tile `(r / 512, n / 512)`. -/
theorem cover (i : S8192x4096.Idx) :
    ∃ t : Fin cfg1.N, (cfg1.win 6).flush t = true ∧ i ∈ ((cfg1.win 6).blk t).view.set := by
  have hi0 : (i 0).val < 8192 := (i 0).isLt
  have hi1 : (i 1).val < 4096 := (i 1).isLt
  have hlt : ((i 0).val / 512 * 8 + (i 1).val / 512) * 4 + 3 < cfg1.N := by
    rw [show cfg1.N = 512 from N_1]; omega
  have e0 : win1_6.index ⟨((i 0).val / 512 * 8 + (i 1).val / 512) * 4 + 3, hlt⟩ (0 : Fin 2)
      = (((i 0).val / 512 * 8 + (i 1).val / 512) * 4 + 3) / 32 := (idx_o ⟨_, hlt⟩).1
  have e1 : win1_6.index ⟨((i 0).val / 512 * 8 + (i 1).val / 512) * 4 + 3, hlt⟩ (1 : Fin 2)
      = (((i 0).val / 512 * 8 + (i 1).val / 512) * 4 + 3) / 4 % 8 := (idx_o ⟨_, hlt⟩).2
  refine ⟨⟨((i 0).val / 512 * 8 + (i 1).val / 512) * 4 + 3, hlt⟩, (flush1_6 _).mpr ?_, ?_⟩
  · show (((i 0).val / 512 * 8 + (i 1).val / 512) * 4 + 3) % 4 = 3
    omega
  · rw [mem_blk]
    intro a
    match a with
    | ⟨0, _⟩ =>
      show win1_6.index ⟨((i 0).val / 512 * 8 + (i 1).val / 512) * 4 + 3, hlt⟩ (0 : Fin 2) * 512 ≤ (i 0).val
        ∧ (i 0).val < win1_6.index ⟨((i 0).val / 512 * 8 + (i 1).val / 512) * 4 + 3, hlt⟩ (0 : Fin 2) * 512 + 512
      rw [e0]; omega
    | ⟨1, _⟩ =>
      show win1_6.index ⟨((i 0).val / 512 * 8 + (i 1).val / 512) * 4 + 3, hlt⟩ (1 : Fin 2) * 512 ≤ (i 1).val
        ∧ (i 1).val < win1_6.index ⟨((i 0).val / 512 * 8 + (i 1).val / 512) * 4 + 3, hlt⟩ (1 : Fin 2) * 512 + 512
      rw [e1]; omega

/-- The result array after the region: the specification's function of the arrays the region found. -/
theorem final_value (c : Dev nD) : (dat1 (F := Ideal) V c).arrAt 6 cfg1.N = G1 V c :=
  (dat1 (F := Ideal) V c).arrAt_eq_of_cover 6 (G1 V c) (fun t hf => flushed_eq V c t ((flush1_6 t).mp hf)) cover

/-- The result array the second region leaves, from the arrays it found: the activation `main_arg0`, the weight
    `main_arg1`, the scaling row `main_v0`, the bias row `main_v1`, the up-projection `main_v3` and the
    projection `main_v4`. -/
theorem main_value (c : Dev nD) (r : Fin 8192) (n : Fin 4096) :
    ((dat1 (F := Ideal) V c).arrAt 6 cfg1.N : S8192x4096.Idx → EReal) (ix2 r n)
      = ((∑ k : Fin 4096, Cert.Spec.quant (fun k => aX V c (ix2 r k) * aS V c (ix2 0 k)) k * Cert.Spec.quant (fun k => aW V c (ix2 n k)) k)
          + ∑ ρ' : Fin 32, aProj V c (ix2 r ρ') * aUp V c (ix2 n ρ')) + aB V c (ix2 0 n) :=
  (congrFun (final_value V c) (ix2 r n)).trans rfl

end

end Cert.KernelIdeal.Hand

end
-- ==== Proof.KI.Bridge.lean ====
/-
  From the run's last contents back to the launch memory. No host operation and no region writes an argument, so
  each argument's buffer ends as launched. The result array is what the main kernel's region leaves; the arrays that
  region found are the launch arrays themselves (activation, weight), their reshaped or narrowed copies made by the host
  line (the scaling vector and the bias as one row each, the up-projection narrowed - the identity over the extended
  reals), and the projection the first region left, which is `(x ⊙ smooth) · down` of the launch arrays. Substituting
  these into the main region's result gives the specification's function of the six launch arrays.
-/
import proofs.«140118_j56727928045732_1_alg».proof.Proof.Gen.KernelIdeal.Launch
import proofs.«140118_j56727928045732_1_alg».proof.Proof.Gen.KernelIdeal.Skeleton
import proofs.«140118_j56727928045732_1_alg».proof.Proof.Gen.KernelIdeal.Points
import proofs.«140118_j56727928045732_1_alg».proof.Proof.KI.Frames
import proofs.«140118_j56727928045732_1_alg».proof.Proof.KI.Arr
import proofs.«140118_j56727928045732_1_alg».proof.Proof.KI.Value0
import proofs.«140118_j56727928045732_1_alg».proof.Proof.KI.Value1
import proofs.«140118_j56727928045732_1_alg».proof.Proof.Gen.KernelIdeal.Regions
import proofs.«140118_j56727928045732_1_alg».proof.Proof.Spec
import Idealize.ShloMosaic.Lib.Pipeline.Value
import Idealize.ShloMosaic.Lib.ValueLayout
import Idealize.ShloMosaic.Lib.StableHlo.Run
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayMath

/-! ## The result over the extended reals -/

section Value
variable (m : (ℓ : Loc nD τ sig) → Buf (Elt Ideal) ℓ) (ρ : Dev nD → PrngReg)

/-- The launch arrays at their literal types. -/
abbrev xA (c : Dev nD) : S8192x4096.Idx → EReal := m ((c : Thread nD τ).loc main_arg0)
abbrev wA (c : Dev nD) : S4096x4096.Idx → EReal := m ((c : Thread nD τ).loc main_arg1)
abbrev downA (c : Dev nD) : S4096x32.Idx → EReal := m ((c : Thread nD τ).loc main_arg2)
abbrev upA (c : Dev nD) : S4096x32.Idx → EReal := m ((c : Thread nD τ).loc main_arg3)
abbrev smoothA (c : Dev nD) : S4096.Idx → EReal := m ((c : Thread nD τ).loc main_arg4)
abbrev biasA (c : Dev nD) : S4096.Idx → EReal := m ((c : Thread nD τ).loc main_arg5)

/-- The host line's four results. -/
theorem W1_main_v0 (c : Dev nD) : (W1 m ρ c (Proc.devRef .tc main_v0) : S1x4096.Idx → EReal) = shapeCast S1x4096 (smoothA m c) shapeCasts_S4096_S1x4096 := by
  show StableHlo.after hostOps0 (W0 m ρ c) (Proc.devRef .tc main_v0) = _
  after_results
  rfl
theorem W1_main_v1 (c : Dev nD) : (W1 m ρ c (Proc.devRef .tc main_v1) : S1x4096.Idx → EReal) = shapeCast S1x4096 (biasA m c) shapeCasts_S4096_S1x4096 := by
  show StableHlo.after hostOps0 (W0 m ρ c) (Proc.devRef .tc main_v1) = _
  after_results
  rfl
theorem W1_main_v2 (c : Dev nD) : (W1 m ρ c (Proc.devRef .tc main_v2) : S4096x32.Idx → EReal) = downA m c := by
  show StableHlo.after hostOps0 (W0 m ρ c) (Proc.devRef .tc main_v2) = _
  after_results
  rfl
theorem W1_main_v3 (c : Dev nD) : (W1 m ρ c (Proc.devRef .tc main_v3) : S4096x32.Idx → EReal) = upA m c := by
  show StableHlo.after hostOps0 (W0 m ρ c) (Proc.devRef .tc main_v3) = _
  after_results
  rfl

/-- A vector reshaped to one row, read at column `k`. -/
theorem row_apply (v : S4096.Idx → EReal) (k : Fin 4096) :
    (shapeCast S1x4096 v shapeCasts_S4096_S1x4096 : S1x4096.Idx → EReal) (ix2 0 k) = v (ix1 k) := by
  refine (shapeCast_apply v shapeCasts_S4096_S1x4096 (ix2 0 k) (ix1 k) ?_).trans rfl
  rw [Shape.rowMajor_val_two, Shape.rowMajor_val_one]
  show (k : ℕ) = 0 * 4096 + (k : ℕ)
  omega

/-- What the first region finds. -/
theorem V1_x (c : Dev nD) : aX (V1 m ρ) c = xA m c := W1_keep m ρ c main_arg0 (by decide)
theorem V1_s (c : Dev nD) (k : Fin 4096) : aS (V1 m ρ) c (ix2 0 k) = smoothA m c (ix1 k) := by
  rw [show aS (V1 m ρ) c = _ from W1_main_v0 m ρ c]; exact row_apply _ k
theorem V1_down (c : Dev nD) : aDown (V1 m ρ) c = downA m c := W1_main_v2 m ρ c

/-- What the second region finds. -/
theorem V2_x (c : Dev nD) : aX (V2 m ρ) c = xA m c :=
  ((W2_arr m ρ c 0).trans (((dat0 (V1 m ρ) c).arrAt_in 0 rfl _).trans (A_eq0 (V1 m ρ) c 0))).trans (V1_x m ρ c)
theorem V2_w (c : Dev nD) : aW (V2 m ρ) c = wA m c :=
  (W2_of_ne m ρ c main_arg1 (by decide)).trans (W1_keep m ρ c main_arg1 (by decide))
theorem V2_s (c : Dev nD) (k : Fin 4096) : aS (V2 m ρ) c (ix2 0 k) = smoothA m c (ix1 k) := by
  rw [show aS (V2 m ρ) c = aS (V1 m ρ) c from
    (W2_arr m ρ c 1).trans (((dat0 (V1 m ρ) c).arrAt_in 1 rfl _).trans (A_eq0 (V1 m ρ) c 1))]
  exact V1_s m ρ c k
theorem V2_b (c : Dev nD) (n : Fin 4096) : aB (V2 m ρ) c (ix2 0 n) = biasA m c (ix1 n) := by
  rw [show aB (V2 m ρ) c = _ from (W2_of_ne m ρ c main_v1 (by decide)).trans (W1_main_v1 m ρ c)]
  exact row_apply _ n
theorem V2_up (c : Dev nD) : aUp (V2 m ρ) c = upA m c :=
  (W2_of_ne m ρ c main_v3 (by decide)).trans (W1_main_v3 m ρ c)
theorem V2_proj (c : Dev nD) (r : Fin 8192) (ρ' : Fin 32) :
    aProj (V2 m ρ) c (ix2 r ρ')
      = ∑ k : Fin 4096, (xA m c (ix2 r k) * smoothA m c (ix1 k)) * downA m c (ix2 k ρ') := by
  rw [show aProj (V2 m ρ) c = (dat0 (F := Ideal) (V1 m ρ) c).arrAt 3 cfg0.N from W2_arr m ρ c 3]
  rw [Proj.proj_value (V1 m ρ) c r ρ']
  refine Finset.sum_congr rfl fun k _ => ?_
  rw [V1_s m ρ c k, V1_x m ρ c, V1_down m ρ c]

/-- THE RESULT: the array the program returns is the specification's function of the six launch arrays. -/
theorem result_value (c : Dev nD) (r : Fin 8192) (n : Fin 4096) :
    (W3 m ρ c (Proc.devRef .tc main_v5) : S8192x4096.Idx → EReal) (ix2 r n)
      = Cert.Spec.G (fun r k => xA m c (ix2 r k)) (fun n k => wA m c (ix2 n k)) (fun k ρ' => downA m c (ix2 k ρ'))
          (fun n ρ' => upA m c (ix2 n ρ')) (fun k => smoothA m c (ix1 k)) (fun n => biasA m c (ix1 n)) r n := by
  rw [show (W3 m ρ c (Proc.devRef .tc main_v5) : S8192x4096.Idx → EReal) = (dat1 (F := Ideal) (V2 m ρ) c).arrAt 6 cfg1.N from W3_arr m ρ c 6]
  rw [main_value (V2 m ρ) c r n]
  unfold Cert.Spec.G Cert.Spec.proj Cert.Spec.smoothed
  simp only [V2_x m ρ c, V2_w m ρ c, V2_up m ρ c, V2_s m ρ c, V2_b m ρ c, V2_proj m ρ c]

end Value

end Cert.KernelIdeal.Hand

end
-- ==== Proof.RefValue.lean ====
/-
  The reference's result, read at one entry, is the specification's function of the six argument arrays.

  The reference scales each row of the activation by the smoothing vector, quantises the scaled activation and the
  weight in groups of 64 consecutive entries of a row, contracts the two quantised arrays over the 4096 columns, adds the
  low-rank term (the scaled activation times the down projection, contracted with the up projection over the 32 ranks)
  and the bias. Each stage is read at an index: a reshape [R, 4096] ↔ [R, 64, 64] sends column k to group k / 64 and
  lane k % 64, a group's maximum is the fold of max over its 64 lanes, and the contractions are sums over a column index.
-/
import proofs.«140118_j56727928045732_1_alg».proof.Proof.Gen.ReferenceIdeal.Read
import proofs.«140118_j56727928045732_1_alg».proof.Proof.Spec
import Idealize.ShloMosaic.Lib.ValueIdx
import Idealize.ShloMosaic.PureOps.Ideal.Laws
import Idealize.ShloMosaic.PureOps.Reduce
import Idealize.ShloMosaic.Lib.Pipeline.Value

noncomputable section

namespace Cert.RefValue

open Idealize.ShloMosaic Idealize.ShloMosaic.ValueIdx Cert.ReferenceIdeal

/-! ## The two reductions' shape facts -/

/-- Dropping the last axis of [8192, 64, 64] leaves [8192, 64]. -/
theorem redX : S8192x64x64.Reduces [2] S8192x64 := by decide
/-- Dropping the last axis of [4096, 64, 64] leaves [4096, 64]. -/
theorem redW : S4096x64x64.Reduces [2] S4096x64 := by decide

/-- Entry (r, g) of the reduced array sits under the entries (r, g, l) of the source. -/
theorem redX_lift (r : Fin 8192) (g : Fin 64) (l : Fin (S8192x64x64.size 2)) :
    redX.lift (ix2 r g) l = ix3 r g (l : Fin 64) :=
  funext fun c => Fin.ext (by
    match c with
    | ⟨0, _⟩ => rfl
    | ⟨1, _⟩ => rfl
    | ⟨2, _⟩ => rfl)
theorem redW_lift (n : Fin 4096) (g : Fin 64) (l : Fin (S4096x64x64.size 2)) :
    redW.lift (ix2 n g) l = ix3 n g (l : Fin 64) :=
  funext fun c => Fin.ext (by
    match c with
    | ⟨0, _⟩ => rfl
    | ⟨1, _⟩ => rfl
    | ⟨2, _⟩ => rfl)

/-- Column `g * 64 + l` of a row of 4096: lane `l` of group `g`. -/
def col (g l : Fin 64) : Fin 4096 := ⟨g.val * 64 + l.val, by have := g.isLt; have := l.isLt; omega⟩

/-- A group's maximum of absolute values, as the reference takes it over the last axis of [8192, 64, 64]. -/
theorem groupMaxX (y : FVec Ideal S8192x64x64 .f32) (c : S_.Idx → Ideal .f32)
    (hc : ∀ i, c i = Spec.negInf)
    (h' : S8192x64x64.ReducesTo [2] S8192x64) (hu : 0 < S_.numel) (r : Fin 8192) (g : Fin 64) :
    Host.reduce (FloatOps.maximumf (F := Ideal) (φ := .f32)) (Host.absf (F := Ideal) (φ := .f32) y) c h' hu (ix2 r g)
      = Spec.absMax (fun l => y (ix3 r g l)) := by
  rw [Host.reduce_eq_fold_single _ _ _ h' redX hu, hc]
  have e : (Host.absf (F := Ideal) (φ := .f32) y ∘ redX.lift (ix2 r g)) = fun l : Fin 64 => max (y (ix3 r g l)) (-(y (ix3 r g l))) :=
    funext fun l => by
      show Host.absf (F := Ideal) (φ := .f32) y (redX.lift (ix2 r g) l) = _
      rw [redX_lift]; rfl
  rw [e]; rfl

/-- The same over the last axis of [4096, 64, 64]. -/
theorem groupMaxW (y : FVec Ideal S4096x64x64 .f32) (c : S_.Idx → Ideal .f32)
    (hc : ∀ i, c i = Spec.negInf)
    (h' : S4096x64x64.ReducesTo [2] S4096x64) (hu : 0 < S_.numel) (n : Fin 4096) (g : Fin 64) :
    Host.reduce (FloatOps.maximumf (F := Ideal) (φ := .f32)) (Host.absf (F := Ideal) (φ := .f32) y) c h' hu (ix2 n g)
      = Spec.absMax (fun l => y (ix3 n g l)) := by
  rw [Host.reduce_eq_fold_single _ _ _ h' redW hu, hc]
  have e : (Host.absf (F := Ideal) (φ := .f32) y ∘ redW.lift (ix2 n g)) = fun l : Fin 64 => max (y (ix3 n g l)) (-(y (ix3 n g l))) :=
    funext fun l => by
      show Host.absf (F := Ideal) (φ := .f32) y (redW.lift (ix2 n g) l) = _
      rw [redW_lift]; rfl
  rw [e]; rfl

/-! ## The activation: scaled, grouped, quantised -/

section Activation

variable (x0 : (⟨S8192x4096, .f32⟩ : BufTy).Contents (Elt Ideal)) (x4 : (⟨S4096, .f32⟩ : BufTy).Contents (Elt Ideal))

/-- Row `r` of the scaled activation. -/
abbrev xsRow (r : Fin 8192) : Fin 4096 → EReal :=
  Spec.smoothed (fun r k => x0 (ix2 r k)) (fun k => x4 (ix1 k)) r

/-- The scaled activation at (r, k): the activation's entry times the scaling vector's. -/
theorem v2_at (r : Fin 8192) (k : Fin 4096) :
    Read.val_main_v2 (F := Ideal) x0 x4 (ix2 r k) = xsRow x0 x4 r k := by
  have e : Read.idx_main_v0 (Read.idx_main_v1 (ix2 r k)) = ix1 k :=
    funext fun a => match a with | ⟨0, _⟩ => rfl
  rw [Read.val_main_v2_apply, Read.val_main_v1_apply, Read.val_main_v0_apply, e]
  rfl

/-- Regrouped: entry (r, g, l) is column `g * 64 + l` of row `r`. -/
theorem v3_at (r : Fin 8192) (g l : Fin 64) :
    Read.val_main_v3 (F := Ideal) x0 x4 (ix3 r g l) = xsRow x0 x4 r (col g l) := by
  have e : Read.idx_main_v3 (ix3 r g l) = ix2 r (col g l) :=
    funext fun a => Fin.ext (by
      have hr := r.isLt; have hg := g.isLt; have hl := l.isLt
      match a with
      | ⟨0, _⟩ => show ((r.val * 64 + g.val) * 64 + l.val) / 4096 = r.val; omega
      | ⟨1, _⟩ => show ((r.val * 64 + g.val) * 64 + l.val) % 4096 = g.val * 64 + l.val; omega)
  rw [Read.val_main_v3_apply, e, v2_at]

/-- The maximum of absolute values over group `g` of row `r`. -/
theorem v5_at (r : Fin 8192) (g : Fin 64) :
    Read.val_main_v5 (F := Ideal) x0 x4 (ix2 r g) = Spec.absMax (Spec.group (xsRow x0 x4 r) g) := by
  unfold Read.val_main_v5 Read.val_main_v4
  rw [groupMaxX (Read.val_main_v3 (F := Ideal) x0 x4) (Read.val_main_cst (F := Ideal)) (fun _ => rfl)]
  exact congrArg Spec.absMax (funext fun l => v3_at x0 x4 r g l)

/-- The scale of group `g` of row `r`. -/
theorem v10_at (r : Fin 8192) (g : Fin 64) (z : Fin 1) :
    Read.val_main_v10 (F := Ideal) x0 x4 (ix3 r g z) = Spec.scale (Spec.group (xsRow x0 x4 r) g) := by
  have e6 : Read.idx_main_v6 (ix3 r g z) = ix2 r g :=
    funext fun a => match a with | ⟨0, _⟩ => rfl | ⟨1, _⟩ => rfl
  rw [Read.val_main_v10_apply, Read.val_main_v8_apply, Read.val_main_v6_apply, Read.val_main_v7_apply,
    Read.val_main_v9_apply, Read.val_main_cst_0_apply, Read.val_main_cst_1_apply, e6, v5_at]
  rfl

/-- Entry (r, g, l) quantised at its group's scale. -/
theorem v16_at (r : Fin 8192) (g l : Fin 64) :
    Read.val_main_v16 (F := Ideal) x0 x4 (ix3 r g l)
      = Spec.quantAt (Spec.scale (Spec.group (xsRow x0 x4 r) g)) (xsRow x0 x4 r (col g l)) := by
  have e11 : Read.idx_main_v11 (ix3 r g l) = ix3 r g (0 : Fin 1) :=
    funext fun a => match a with | ⟨0, _⟩ => rfl | ⟨1, _⟩ => rfl | ⟨2, _⟩ => rfl
  have e15 : Read.idx_main_v15 (ix3 r g l) = ix3 r g (0 : Fin 1) :=
    funext fun a => match a with | ⟨0, _⟩ => rfl | ⟨1, _⟩ => rfl | ⟨2, _⟩ => rfl
  rw [Read.val_main_v16_apply, Read.val_main_v14_apply, Read.val_main_v15_apply, Read.val_main_call1_v4_apply,
    Read.val_main_call1_v3_apply, Read.val_main_cst_3_apply, Read.val_main_call1_v2_apply,
    Read.val_main_call1_v1_apply, Read.val_main_call1_v0_apply, Read.val_main_cst_2_apply,
    Read.val_main_v13_apply, Read.val_main_v12_apply, Read.val_main_v11_apply, e11, e15, v10_at, v3_at]
  rfl

/-- The quantised activation at (r, k): column `k` is lane `k % 64` of group `k / 64`. -/
theorem v17_at (r : Fin 8192) (k : Fin 4096) :
    Read.val_main_v17 (F := Ideal) x0 x4 (ix2 r k) = Spec.quant (xsRow x0 x4 r) k := by
  have hk := k.isLt
  have hr := r.isLt
  have e : Read.idx_main_v17 (ix2 r k)
      = ix3 r (⟨k.val / 64, by omega⟩ : Fin 64) (⟨k.val % 64, by omega⟩ : Fin 64) :=
    funext fun a => Fin.ext (by
      match a with
      | ⟨0, _⟩ => show (r.val * 4096 + k.val) / 4096 = r.val; omega
      | ⟨1, _⟩ => show (r.val * 4096 + k.val) / 64 % 64 = k.val / 64; omega
      | ⟨2, _⟩ => show (r.val * 4096 + k.val) % 64 = k.val % 64; omega)
  have ec : col (⟨k.val / 64, by omega⟩ : Fin 64) (⟨k.val % 64, by omega⟩ : Fin 64) = k :=
    Fin.ext (by show k.val / 64 * 64 + k.val % 64 = k.val; omega)
  rw [Read.val_main_v17_apply, e, v16_at, ec]
  rfl

end Activation

/-! ## The weight: grouped, quantised -/

section Weight

variable (x1 : (⟨S4096x4096, .f32⟩ : BufTy).Contents (Elt Ideal))

/-- Row `n` of the weight. -/
abbrev wRow (n : Fin 4096) : Fin 4096 → EReal := fun k => x1 (ix2 n k)

/-- Regrouped: entry (n, g, l) is column `g * 64 + l` of row `n`. -/
theorem v18_at (n : Fin 4096) (g l : Fin 64) :
    Read.val_main_v18 (F := Ideal) x1 (ix3 n g l) = wRow x1 n (col g l) := by
  have e : Read.idx_main_v18 (ix3 n g l) = ix2 n (col g l) :=
    funext fun a => Fin.ext (by
      have hn := n.isLt; have hg := g.isLt; have hl := l.isLt
      match a with
      | ⟨0, _⟩ => show ((n.val * 64 + g.val) * 64 + l.val) / 4096 = n.val; omega
      | ⟨1, _⟩ => show ((n.val * 64 + g.val) * 64 + l.val) % 4096 = g.val * 64 + l.val; omega)
  rw [Read.val_main_v18_apply, e]

/-- The maximum of absolute values over group `g` of row `n`. -/
theorem v20_at (n : Fin 4096) (g : Fin 64) :
    Read.val_main_v20 (F := Ideal) x1 (ix2 n g) = Spec.absMax (Spec.group (wRow x1 n) g) := by
  unfold Read.val_main_v20 Read.val_main_v19
  rw [groupMaxW (Read.val_main_v18 (F := Ideal) x1) (Read.val_main_cst_4 (F := Ideal)) (fun _ => rfl)]
  exact congrArg Spec.absMax (funext fun l => v18_at x1 n g l)

/-- The scale of group `g` of row `n`. -/
theorem v25_at (n : Fin 4096) (g : Fin 64) (z : Fin 1) :
    Read.val_main_v25 (F := Ideal) x1 (ix3 n g z) = Spec.scale (Spec.group (wRow x1 n) g) := by
  have e21 : Read.idx_main_v21 (ix3 n g z) = ix2 n g :=
    funext fun a => match a with | ⟨0, _⟩ => rfl | ⟨1, _⟩ => rfl
  rw [Read.val_main_v25_apply, Read.val_main_v23_apply, Read.val_main_v21_apply, Read.val_main_v22_apply,
    Read.val_main_v24_apply, Read.val_main_cst_5_apply, Read.val_main_cst_6_apply, e21, v20_at]
  rfl

/-- Entry (n, g, l) quantised at its group's scale. -/
theorem v31_at (n : Fin 4096) (g l : Fin 64) :
    Read.val_main_v31 (F := Ideal) x1 (ix3 n g l)
      = Spec.quantAt (Spec.scale (Spec.group (wRow x1 n) g)) (wRow x1 n (col g l)) := by
  have e26 : Read.idx_main_v26 (ix3 n g l) = ix3 n g (0 : Fin 1) :=
    funext fun a => match a with | ⟨0, _⟩ => rfl | ⟨1, _⟩ => rfl | ⟨2, _⟩ => rfl
  have e30 : Read.idx_main_v30 (ix3 n g l) = ix3 n g (0 : Fin 1) :=
    funext fun a => match a with | ⟨0, _⟩ => rfl | ⟨1, _⟩ => rfl | ⟨2, _⟩ => rfl
  rw [Read.val_main_v31_apply, Read.val_main_v29_apply, Read.val_main_v30_apply, Read.val_main_call3_v4_apply,
    Read.val_main_call3_v3_apply, Read.val_main_cst_8_apply, Read.val_main_call3_v2_apply,
    Read.val_main_call3_v1_apply, Read.val_main_call3_v0_apply, Read.val_main_cst_7_apply,
    Read.val_main_v28_apply, Read.val_main_v27_apply, Read.val_main_v26_apply, e26, e30, v25_at, v18_at]
  rfl

/-- The quantised weight at (n, k). -/
theorem v32_at (n k : Fin 4096) :
    Read.val_main_v32 (F := Ideal) x1 (ix2 n k) = Spec.quant (wRow x1 n) k := by
  have hk := k.isLt
  have hn := n.isLt
  have e : Read.idx_main_v32 (ix2 n k)
      = ix3 n (⟨k.val / 64, by omega⟩ : Fin 64) (⟨k.val % 64, by omega⟩ : Fin 64) :=
    funext fun a => Fin.ext (by
      match a with
      | ⟨0, _⟩ => show (n.val * 4096 + k.val) / 4096 = n.val; omega
      | ⟨1, _⟩ => show (n.val * 4096 + k.val) / 64 % 64 = k.val / 64; omega
      | ⟨2, _⟩ => show (n.val * 4096 + k.val) % 64 = k.val % 64; omega)
  have ec : col (⟨k.val / 64, by omega⟩ : Fin 64) (⟨k.val % 64, by omega⟩ : Fin 64) = k :=
    Fin.ext (by show k.val / 64 * 64 + k.val % 64 = k.val; omega)
  rw [Read.val_main_v32_apply, e, v31_at, ec]
  rfl

end Weight

/-! ## The contractions and the assembly -/

section Assembly

variable (x0 : (⟨S8192x4096, .f32⟩ : BufTy).Contents (Elt Ideal)) (x1 : (⟨S4096x4096, .f32⟩ : BufTy).Contents (Elt Ideal))
  (x2 x3 : (⟨S4096x32, .f32⟩ : BufTy).Contents (Elt Ideal)) (x4 x5 : (⟨S4096, .f32⟩ : BufTy).Contents (Elt Ideal))

/-- The quantised product at (r, n): the sum over the columns of the two quantised rows' products. -/
theorem v33_at (r : Fin 8192) (n : Fin 4096) :
    Read.val_main_v33 (F := Ideal) x0 x1 x4 (ix2 r n)
      = ∑ k : Fin 4096, Spec.quant (xsRow x0 x4 r) k * Spec.quant (wRow x1 n) k := by
  rw [Read.val_main_v33_apply]
  refine Finset.sum_congr rfl fun k _ => ?_
  have el : Read.lidx_main_v33 (ix2 r n) k = ix2 r k :=
    funext fun a => match a with | ⟨0, _⟩ => rfl | ⟨1, _⟩ => rfl
  have er : Read.ridx_main_v33 (ix2 r n) k = ix2 n k :=
    funext fun a => match a with | ⟨0, _⟩ => rfl | ⟨1, _⟩ => rfl
  rw [el, er, v17_at, v32_at]

/-- The low-rank projection at (r, ρ). -/
theorem v34_at (r : Fin 8192) (ρ : Fin 32) :
    Read.val_main_v34 (F := Ideal) x0 x2 x4 (ix2 r ρ)
      = Spec.proj (fun r k => x0 (ix2 r k)) (fun k => x4 (ix1 k)) (fun k ρ => x2 (ix2 k ρ)) r ρ := by
  rw [Read.val_main_v34_apply]
  refine Finset.sum_congr rfl fun k _ => ?_
  have el : Read.lidx_main_v34 (ix2 r ρ) k = ix2 r k :=
    funext fun a => match a with | ⟨0, _⟩ => rfl | ⟨1, _⟩ => rfl
  have er : Read.ridx_main_v34 (ix2 r ρ) k = ix2 k ρ :=
    funext fun a => match a with | ⟨0, _⟩ => rfl | ⟨1, _⟩ => rfl
  rw [el, er, v2_at]

/-- The low-rank term at (r, n): the projection contracted with the up matrix over the ranks. -/
theorem v35_at (r : Fin 8192) (n : Fin 4096) :
    Read.val_main_v35 (F := Ideal) x0 x2 x3 x4 (ix2 r n)
      = ∑ ρ : Fin 32, Spec.proj (fun r k => x0 (ix2 r k)) (fun k => x4 (ix1 k)) (fun k ρ => x2 (ix2 k ρ)) r ρ
          * x3 (ix2 n ρ) := by
  rw [Read.val_main_v35_apply]
  refine Finset.sum_congr rfl fun ρ _ => ?_
  have el : Read.lidx_main_v35 (ix2 r n) ρ = ix2 r ρ :=
    funext fun a => match a with | ⟨0, _⟩ => rfl | ⟨1, _⟩ => rfl
  have er : Read.ridx_main_v35 (ix2 r n) ρ = ix2 n ρ :=
    funext fun a => match a with | ⟨0, _⟩ => rfl | ⟨1, _⟩ => rfl
  rw [el, er, v34_at]

/-- The bias, broadcast along the rows, at (r, n). -/
theorem v38_at (r : Fin 8192) (n : Fin 4096) :
    Read.val_main_v38 (F := Ideal) x5 (ix2 r n) = x5 (ix1 n) := by
  have e : Read.idx_main_v37 (Read.idx_main_v38 (ix2 r n)) = ix1 n :=
    funext fun a => match a with | ⟨0, _⟩ => rfl
  rw [Read.val_main_v38_apply, Read.val_main_v37_apply, e]

end Assembly

/-- The reference's result at (r, n) is the specification's: the quantised product plus the low-rank term plus the bias. -/
theorem ref_is_G (x0 : (⟨S8192x4096, .f32⟩ : BufTy).Contents (Elt Ideal)) (x1 : (⟨S4096x4096, .f32⟩ : BufTy).Contents (Elt Ideal)) (x2 x3 : (⟨S4096x32, .f32⟩ : BufTy).Contents (Elt Ideal)) (x4 x5 : (⟨S4096, .f32⟩ : BufTy).Contents (Elt Ideal)) (r : Fin 8192) (n : Fin 4096) :
    Cert.ReferenceIdeal.Read.val_main_v39 (F := Ideal) x0 x1 x2 x3 x4 x5 (ix2 r n)
      = Cert.Spec.G (fun r k => x0 (ix2 r k)) (fun n k => x1 (ix2 n k)) (fun k ρ => x2 (ix2 k ρ)) (fun n ρ => x3 (ix2 n ρ)) (fun k => x4 (ix1 k)) (fun n => x5 (ix1 n)) r n := by
  rw [Read.val_main_v39_apply, Read.val_main_v36_apply, v33_at x0 x1 x4, v35_at x0 x2 x3 x4, v38_at x5]
  rfl

end Cert.RefValue

end
-- ==== Proof.lean ====
/-
  The certificate. Both programs quantise the smoothed activation and the weight in groups of 64 with the same scale,
  rounding and clipping, multiply the quantised matrices, add the low-rank term `((x ⊙ smooth) · down) · upᵀ` and the
  bias. The kernel does it in two pallas_calls - the projection `(x ⊙ smooth) · down` tile by tile, then the product
  accumulated over four 1024-wide slices of the contraction axis, the low-rank term and the bias added at the last
  slice - and the reference in one pass over whole arrays. Over the extended reals a change of float format is the
  identity and a sum may be regrouped, so the two results are one function of the six arguments (`Cert.Spec.G`);
  no finiteness is used. The three frames: each kernel program's run from the library's several-regions launch with one
  record per region (the main kernel's region carrying its accumulator from point to point); the reference's from its
  generated run. The idealization rewrote nothing, so `preserves` is trivial.
-/
import proofs.«140118_j56727928045732_1_alg».proof.Defs
import proofs.«140118_j56727928045732_1_alg».proof.Proof.Gen.Kernel
import proofs.«140118_j56727928045732_1_alg».proof.Proof.Gen.KernelIdeal
import proofs.«140118_j56727928045732_1_alg».proof.Proof.Gen.ReferenceIdeal
import proofs.«140118_j56727928045732_1_alg».proof.Proof.Gen.Pre_finite_inputs
import proofs.«140118_j56727928045732_1_alg».proof.Proof.Gen.ReferenceIdeal.Run
import proofs.«140118_j56727928045732_1_alg».proof.Proof.Gen.ReferenceIdeal.Read
import proofs.«140118_j56727928045732_1_alg».proof.Proof.K.Frames
import proofs.«140118_j56727928045732_1_alg».proof.Proof.KI.Frames
import proofs.«140118_j56727928045732_1_alg».proof.Proof.KI.Bridge
import proofs.«140118_j56727928045732_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame_run (F := Bits) m ρ
theorem frame_ki : Cert.frame_KernelIdeal := fun m ρ _ => Cert.KernelIdeal.Hand.frame_run (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's function of them in their result array. -/
theorem algebraic : Cert.algebraic_KernelIdeal_ReferenceIdeal := by
  intro m ρ m' ρ' _ hagree
  refine ⟨fun c => Cert.KernelIdeal.Hand.W3 (F := Ideal) m ρ c (Proc.devRef .tc Cert.KernelIdeal.main_v5), ?_, ?_⟩
  · exact (θ_run Cert.KernelIdeal.defs _ _).mono (fun r h c =>
      ⟨h c _ (Cert.KernelIdeal.Hand.mem_uc Cert.KernelIdeal.main_v5 (by decide)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c),
       (h c _ (Cert.KernelIdeal.Hand.mem_uc Cert.KernelIdeal.main_arg4 (by decide))).trans (Cert.KernelIdeal.Hand.W3_main_arg4 m ρ c),
       (h c _ (Cert.KernelIdeal.Hand.mem_uc Cert.KernelIdeal.main_arg5 (by decide))).trans (Cert.KernelIdeal.Hand.W3_main_arg5 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq]
    funext i
    obtain ⟨r, n, rfl⟩ : ∃ (r : Fin 8192) (n : Fin 4096), i = ix2 r n := ⟨i 0, i 1, eq_ix2 i⟩
    rw [(hagree c).1, (hagree c).2.1, (hagree c).2.2.1, (hagree c).2.2.2.1, (hagree c).2.2.2.2.1, (hagree c).2.2.2.2.2]
    exact (Cert.RefValue.ref_is_G _ _ _ _ _ _ r n).trans (Cert.KernelIdeal.Hand.result_value m ρ c r n).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
